-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x4096 : Shape := ⟨2, ![200, 4096]⟩
abbrev S1x50000 : Shape := ⟨2, ![1, 50000]⟩
abbrev S1 : Shape := ⟨1, ![1]⟩
abbrev S_ : Shape := ⟨0, ![]⟩

class Facts : Prop where
  bcast_S_S1x50000 : S_.BroadcastsInDim S1x50000 (![] : Fin 0 → Fin S1x50000.rank)
  reducesTo_S1x50000_S_d0_1 : S1x50000.ReducesTo [0, 1] S_
  h_S_ : 0 < S_.numel
  bcast_S_S1 : S_.BroadcastsInDim S1 (![] : Fin 0 → Fin S1.rank)
  reducesTo_S1_S_d0 : S1.ReducesTo [0] S_
  bcast_S_S200x4096 : S_.BroadcastsInDim S200x4096 (![] : Fin 0 → Fin S200x4096.rank)
  reducesTo_S200x4096_S_d0_1 : S200x4096.ReducesTo [0, 1] S_

variable [Facts]

def fn {F : FTy → Type} [FloatOps F] (main_arg0 : IVec S200x4096 32) (main_arg1 : FVec F S1x50000 .f32) (main_arg2 : FVec F S1 .f32) : IVec S_ 1 :=
  let main_v0 : FVec F S1x50000 .f32 := Host.absf main_arg1
  let main_cst : FVec F S_ .f32 := constant S_ .f32 0x7F800000#32
  let main_v1 : FVec F S1x50000 .f32 := broadcastInDim S1x50000 ![] bcast_S_S1x50000 main_cst
  let main_v2 : IVec S1x50000 1 := cmpf .olt main_v0 main_v1
  let main_c : IVec S_ 1 := constantI S_ 1 1#1
  let main_v3 : IVec S_ 1 := (fun x v => Host.reduce IntOp.andi x v reducesTo_S1x50000_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S200x4096 32 := broadcastInDim S200x4096 ![] bcast_S_S200x4096 main_c_2
  let main_v10 : IVec S200x4096 1 := cmpi .sge main_arg0 main_v9
  let main_c_3 : IVec S_ 1 := constantI S_ 1 1#1
  let main_v11 : IVec S_ 1 := (fun x v => Host.reduce IntOp.andi x v reducesTo_S200x4096_S_d0_1 h_S_) main_v10 main_c_3
  let main_v12 : IVec S_ 1 := andi main_v8 main_v11
  main_v12
-- ==== Kernel.lean ====
abbrev S200x4096 : Shape := ⟨2, ![200, 4096]⟩
abbrev S1x50000 : Shape := ⟨2, ![1, 50000]⟩
abbrev S1 : Shape := ⟨1, ![1]⟩
abbrev S_ : Shape := ⟨0, ![]⟩
abbrev S1x53248 : Shape := ⟨2, ![1, 53248]⟩
abbrev S4096x1 : Shape := ⟨2, ![4096, 1]⟩
abbrev S200x512 : Shape := ⟨2, ![200, 512]⟩
abbrev S1x4096 : Shape := ⟨2, ![1, 4096]⟩
abbrev S512x1 : Shape := ⟨2, ![512, 1]⟩
abbrev S512x4096 : Shape := ⟨2, ![512, 4096]⟩
abbrev S1x512 : Shape := ⟨2, ![1, 512]⟩
abbrev S512 : Shape := ⟨1, ![512]⟩
abbrev S1x1 : Shape := ⟨2, ![1, 1]⟩

abbrev nBuf : Space → Nat
  | .hbm => 7
  | .vmem => 8
  | .smem => 0
  | _ => 0

abbrev bufTy : (tb : Table) → Fin (tcTables nBuf tb) → BufTy
  | .hbm, ⟨0, _⟩ => ⟨S200x4096, .i32⟩
  | .hbm, ⟨1, _⟩ => ⟨S1x50000, .f32⟩
  | .hbm, ⟨2, _⟩ => ⟨S1, .f32⟩
  | .hbm, ⟨3, _⟩ => ⟨S_, .i32⟩
  | .hbm, ⟨4, _⟩ => ⟨S_, .f32⟩
  | .hbm, ⟨5, _⟩ => ⟨S1x53248, .f32⟩
  | .hbm, ⟨6, _⟩ => ⟨S4096x1, .f32⟩
  | .local _ .vmem, ⟨0, _⟩ => ⟨S200x512, .i32⟩
  | .local _ .vmem, ⟨1, _⟩ => ⟨S200x512, .i32⟩
  | .local _ .vmem, ⟨2, _⟩ => ⟨S1x4096, .f32⟩
  | .local _ .vmem, ⟨3, _⟩ => ⟨S1x4096, .f32⟩
  | .local _ .vmem, ⟨4, _⟩ => ⟨S1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S200x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S200x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S1x50000_S1x53248_000_032480 : S1x50000.Pads (![0, 0] : Fin 2 → Nat) ![0, 3248] ![0, 0] S1x53248
  h_S_ : 0 < S_.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x4096_d1_w32 : S1x4096.Iotas .tc 32 [1]
  inb_S200x512_S1x512_0_0 : ∀ a, (![0, 0] : Fin 2 → Nat) a + S1x512.size a ≤ S200x512.size a
  h_S1x512 : 0 < S1x512.numel
  shapeCasts_S1x512_S512 : S1x512.ShapeCasts S512
  shapeCasts_S512_S512x1 : S512.ShapeCasts S512x1
  broadcasts_S512x1_S512x4096 : S512x1.Broadcasts S512x4096
  broadcasts_S1x4096_S512x4096 : S1x4096.Broadcasts S512x4096
  natLt_1_32 : 1 < 32
  inb_S200x512_S1x512_1_0 : ∀ a, (![1, 0] : Fin 2 → Nat) a + S1x512.size a ≤ S200x512.size a
  inb_S200x512_S1x512_2_0 : ∀ a, (![2, 0] : Fin 2 → Nat) a + S1x512.size a ≤ S200x512.size a
  inb_S200x512_S1x512_3_0 : ∀ a, (![3, 0] : Fin 2 → Nat) a + S1x512.size a ≤ S200x512.size a
  inb_S200x512_S1x512_4_0 : ∀ a, (![4, 0] : Fin 2 → Nat) a + S1x512.size a ≤ S200x512.size a
  inb_S200x512_S1x512_5_0 : ∀ a, (![5, 0] : Fin 2 → Nat) a + S1x512.size a ≤ S200x512.size a
  inb_S200x512_S1x512_6_0 : ∀ a, (![6, 0] : Fin 2 → Nat) a + S1x512.size a ≤ S200x512.size a
  inb_S200x512_S1x512_7_0 : ∀ a, (![7, 0] : Fin 2 → Nat) a + S1x512.size a ≤ S200x512.size a
  inb_S200x512_S1x512_8_0 : ∀ a, (![8, 0] : Fin 2 → Nat) a + S1x512.size a ≤ S200x512.size a
  inb_S200x512_S1x512_9_0 : ∀ a, (![9, 0] : Fin 2 → Nat) a + S1x512.size a ≤ S200x512.size a
  inb_S200x512_S1x512_10_0 : ∀ a, (![10, 0] : Fin 2 → Nat) a + S1x512.size a ≤ S200x512.size a
  inb_S200x512_S1x512_11_0 : ∀ a, (![11, 0] : Fin 2 → Nat) a + S1x512.size a ≤ S200x512.size a
  inb_S200x512_S1x512_12_0 : ∀ a, (![12, 0] : Fin 2 → Nat) a + S1x512.size a ≤ S200x512.size a
  inb_S200x512_S1x512_13_0 : ∀ a, (![13, 0] : Fin 2 → Nat) a + S1x512.size a ≤ S200x512.size a
  inb_S200x512_S1x512_14_0 : ∀ a, (![14, 0] : Fin 2 → Nat) a + S1x512.size a ≤ S200x512.size a
  inb_S200x512_S1x512_15_0 : ∀ a, (![15, 0] : Fin 2 → Nat) a + S1x512.size a ≤ S200x512.size a
  inb_S200x512_S1x512_16_0 : ∀ a, (![16, 0] : Fin 2 → Nat) a + S1x512.size a ≤ S200x512.size a
  inb_S200x512_S1x512_17_0 : ∀ a, (![17, 0] : Fin 2 → Nat) a + S1x512.size a ≤ S200x512.size a
  inb_S200x512_S1x512_18_0 : ∀ a, (![18, 0] : Fin 2 → Nat) a + S1x512.size a ≤ S200x512.size a
  inb_S200x512_S1x512_19_0 : ∀ a, (![19, 0] : Fin 2 → Nat) a + S1x512.size a ≤ S200x512.size a
  inb_S200x512_S1x512_20_0 : ∀ a, (![20, 0] : Fin 2 → Nat) a + S1x512.size a ≤ S200x512.size a
  inb_S200x512_S1x512_21_0 : ∀ a, (![21, 0] : Fin 2 → Nat) a + S1x512.size a ≤ S200x512.size a
  inb_S200x512_S1x512_22_0 : ∀ a, (![22, 0] : Fin 2 → Nat) a + S1x512.size a ≤ S200x512.size a
  inb_S200x512_S1x512_23_0 : ∀ a, (![23, 0] : Fin 2 → Nat) a + S1x512.size a ≤ S200x512.size a
  inb_S200x512_S1x512_24_0 : ∀ a, (![24, 0] : Fin 2 → Nat) a + S1x512.size a ≤ S200x512.size a
  inb_S200x512_S1x512_25_0 : ∀ a, (![25, 0] : Fin 2 → Nat) a + S1x512.size a ≤ S200x512.size a
  inb_S200x512_S1x512_26_0 : ∀ a, (![26, 0] : Fin 2 → Nat) a + S1x512.size a ≤ S200x512.size a
  inb_S200x512_S1x512_27_0 : ∀ a, (![27, 0] : Fin 2 → Nat) a + S1x512.size a ≤ S200x512.size a
  inb_S200x512_S1x512_28_0 : ∀ a, (![28, 0] : Fin 2 → Nat) a + S1x512.size a ≤ S200x512.size a
  inb_S200x512_S1x512_29_0 : ∀ a, (![29, 0] : Fin 2 → Nat) a + S1x512.size a ≤ S200x512.size a
  inb_S200x512_S1x512_30_0 : ∀ a, (![30, 0] : Fin 2 → Nat) a + S1x512.size a ≤ S200x512.size a
  inb_S200x512_S1x512_31_0 : ∀ a, (![31, 0] : Fin 2 → Nat) a + S1x512.size a ≤ S200x512.size a
  inb_S200x512_S1x512_32_0 : ∀ a, (![32, 0] : Fin 2 → Nat) a + S1x512.size a ≤ S200x512.size a
  inb_S200x512_S1x512_33_0 : ∀ a, (![33, 0] : Fin 2 → Nat) a + S1x512.size a ≤ S200x512.size a
  inb_S200x512_S1x512_34_0 : ∀ a, (![34, 0] : Fin 2 → Nat) a + S1x512.size a ≤ S200x512.size a
  inb_S200x512_S1x512_35_0 : ∀ a, (![35, 0] : Fin 2 → Nat) a + S1x512.size a ≤ S200x512.size a
  inb_S200x512_S1x512_36_0 : ∀ a, (![36, 0] : Fin 2 → Nat) a + S1x512.size a ≤ S200x512.size a
  inb_S200x512_S1x512_37_0 : ∀ a, (![37, 0] : Fin 2 → Nat) a + S1x512.size a ≤ S200x512.size a
  inb_S200x512_S1x512_38_0 : ∀ a, (![38, 0] : Fin 2 → Nat) a + S1x512.size a ≤ S200x512.size a
  inb_S200x512_S1x512_39_0 : ∀ a, (![39, 0] : Fin 2 → Nat) a + S1x512.size a ≤ S200x512.size a
  inb_S200x512_S1x512_40_0 : ∀ a, (![40, 0] : Fin 2 → Nat) a + S1x512.size a ≤ S200x512.size a
  inb_S200x512_S1x512_41_0 : ∀ a, (![41, 0] : Fin 2 → Nat) a + S1x512.size a ≤ S200x512.size a
  inb_S200x512_S1x512_42_0 : ∀ a, (![42, 0] : Fin 2 → Nat) a + S1x512.size a ≤ S200x512.size a
  inb_S200x512_S1x512_43_0 : ∀ a, (![43, 0] : Fin 2 → Nat) a + S1x512.size a ≤ S200x512.size a
  inb_S200x512_S1x512_44_0 : ∀ a, (![44, 0] : Fin 2 → Nat) a + S1x512.size a ≤ S200x512.size a
  inb_S200x512_S1x512_45_0 : ∀ a, (![45, 0] : Fin 2 → Nat) a + S1x512.size a ≤ S200x512.size a
  inb_S200x512_S1x512_46_0 : ∀ a, (![46, 0] : Fin 2 → Nat) a + S1x512.size a ≤ S200x512.size a
  inb_S200x512_S1x512_47_0 : ∀ a, (![47, 0] : Fin 2 → Nat) a + S1x512.size a ≤ S200x512.size a
  inb_S200x512_S1x512_48_0 : ∀ a, (![48, 0] : Fin 2 → Nat) a + S1x512.size a ≤ S200x512.size a
  inb_S200x512_S1x512_49_0 : ∀ a, (![49, 0] : Fin 2 → Nat) a + S1x512.size a ≤ S200x512.size a
  inb_S200x512_S1x512_50_0 : ∀ a, (![50, 0] : Fin 2 → Nat) a + S1x512.size a ≤ S200x512.size a
  inb_S200x512_S1x512_51_0 : ∀ a, (![51, 0] : Fin 2 → Nat) a + S1x512.size a ≤ S200x512.size a
  inb_S200x512_S1x512_52_0 : ∀ a, (![52, 0] : Fin 2 → Nat) a + S1x512.size a ≤ S200x512.size a
  inb_S200x512_S1x512_53_0 : ∀ a, (![53, 0] : Fin 2 → Nat) a + S1x512.size a ≤ S200x512.size a
  inb_S200x512_S1x512_54_0 : ∀ a, (![54, 0] : Fin 2 → Nat) a + S1x512.size a ≤ S200x512.size a
  inb_S200x512_S1x512_55_0 : ∀ a, (![55, 0] : Fin 2 → Nat) a + S1x512.size a ≤ S200x512.size a
  inb_S200x512_S1x512_56_0 : ∀ a, (![56, 0] : Fin 2 → Nat) a + S1x512.size a ≤ S200x512.size a
  inb_S200x512_S1x512_57_0 : ∀ a, (![57, 0] : Fin 2 → Nat) a + S1x512.size a ≤ S200x512.size a
  inb_S200x512_S1x512_58_0 : ∀ a, (![58, 0] : Fin 2 → Nat) a + S1x512.size a ≤ S200x512.size a
  inb_S200x512_S1x512_59_0 : ∀ a, (![59, 0] : Fin 2 → Nat) a + S1x512.size a ≤ S200x512.size a
  inb_S200x512_S1x512_60_0 : ∀ a, (![60, 0] : Fin 2 → Nat) a + S1x512.size a ≤ S200x512.size a
  inb_S200x512_S1x512_61_0 : ∀ a, (![61, 0] : Fin 2 → Nat) a + S1x512.size a ≤ S200x512.size a
  inb_S200x512_S1x512_62_0 : ∀ a, (![62, 0] : Fin 2 → Nat) a + S1x512.size a ≤ S200x512.size a
  inb_S200x512_S1x512_63_0 : ∀ a, (![63, 0] : Fin 2 → Nat) a + S1x512.size a ≤ S200x512.size a
  inb_S200x512_S1x512_64_0 : ∀ a, (![64, 0] : Fin 2 → Nat) a + S1x512.size a ≤ S200x512.size a
  inb_S200x512_S1x512_65_0 : ∀ a, (![65, 0] : Fin 2 → Nat) a + S1x512.size a ≤ S200x512.size a
  inb_S200x512_S1x512_66_0 : ∀ a, (![66, 0] : Fin 2 → Nat) a + S1x512.size a ≤ S200x512.size a
  inb_S200x512_S1x512_67_0 : ∀ a, (![67, 0] : Fin 2 → Nat) a + S1x512.size a ≤ S200x512.size a
  inb_S200x512_S1x512_68_0 : ∀ a, (![68, 0] : Fin 2 → Nat) a + S1x512.size a ≤ S200x512.size a
  inb_S200x512_S1x512_69_0 : ∀ a, (![69, 0] : Fin 2 → Nat) a + S1x512.size a ≤ S200x512.size a
  inb_S200x512_S1x512_70_0 : ∀ a, (![70, 0] : Fin 2 → Nat) a + S1x512.size a ≤ S200x512.size a
  inb_S200x512_S1x512_71_0 : ∀ a, (![71, 0] : Fin 2 → Nat) a + S1x512.size a ≤ S200x512.size a
  inb_S200x512_S1x512_72_0 : ∀ a, (![72, 0] : Fin 2 → Nat) a + S1x512.size a ≤ S200x512.size a
  inb_S200x512_S1x512_73_0 : ∀ a, (![73, 0] : Fin 2 → Nat) a + S1x512.size a ≤ S200x512.size a
  inb_S200x512_S1x512_74_0 : ∀ a, (![74, 0] : Fin 2 → Nat) a + S1x512.size a ≤ S200x512.size a
  inb_S200x512_S1x512_75_0 : ∀ a, (![75, 0] : Fin 2 → Nat) a + S1x512.size a ≤ S200x512.size a
  inb_S200x512_S1x512_76_0 : ∀ a, (![76, 0] : Fin 2 → Nat) a + S1x512.size a ≤ S200x512.size a
  inb_S200x512_S1x512_77_0 : ∀ a, (![77, 0] : Fin 2 → Nat) a + S1x512.size a ≤ S200x512.size a
  inb_S200x512_S1x512_78_0 : ∀ a, (![78, 0] : Fin 2 → Nat) a + S1x512.size a ≤ S200x512.size a
  inb_S200x512_S1x512_79_0 : ∀ a, (![79, 0] : Fin 2 → Nat) a + S1x512.size a ≤ S200x512.size a
  inb_S200x512_S1x512_80_0 : ∀ a, (![80, 0] : Fin 2 → Nat) a + S1x512.size a ≤ S200x512.size a
  inb_S200x512_S1x512_81_0 : ∀ a, (![81, 0] : Fin 2 → Nat) a + S1x512.size a ≤ S200x512.size a
  inb_S200x512_S1x512_82_0 : ∀ a, (![82, 0] : Fin 2 → Nat) a + S1x512.size a ≤ S200x512.size a
  inb_S200x512_S1x512_83_0 : ∀ a, (![83, 0] : Fin 2 → Nat) a + S1x512.size a ≤ S200x512.size a
  inb_S200x512_S1x512_84_0 : ∀ a, (![84, 0] : Fin 2 → Nat) a + S1x512.size a ≤ S200x512.size a
  inb_S200x512_S1x512_85_0 : ∀ a, (![85, 0] : Fin 2 → Nat) a + S1x512.size a ≤ S200x512.size a
  inb_S200x512_S1x512_86_0 : ∀ a, (![86, 0] : Fin 2 → Nat) a + S1x512.size a ≤ S200x512.size a
  inb_S200x512_S1x512_87_0 : ∀ a, (![87, 0] : Fin 2 → Nat) a + S1x512.size a ≤ S200x512.size a
  inb_S200x512_S1x512_88_0 : ∀ a, (![88, 0] : Fin 2 → Nat) a + S1x512.size a ≤ S200x512.size a
  inb_S200x512_S1x512_89_0 : ∀ a, (![89, 0] : Fin 2 → Nat) a + S1x512.size a ≤ S200x512.size a
  inb_S200x512_S1x512_90_0 : ∀ a, (![90, 0] : Fin 2 → Nat) a + S1x512.size a ≤ S200x512.size a
  inb_S200x512_S1x512_91_0 : ∀ a, (![91, 0] : Fin 2 → Nat) a + S1x512.size a ≤ S200x512.size a
  inb_S200x512_S1x512_92_0 : ∀ a, (![92, 0] : Fin 2 → Nat) a + S1x512.size a ≤ S200x512.size a
  inb_S200x512_S1x512_93_0 : ∀ a, (![93, 0] : Fin 2 → Nat) a + S1x512.size a ≤ S200x512.size a
  inb_S200x512_S1x512_94_0 : ∀ a, (![94, 0] : Fin 2 → Nat) a + S1x512.size a ≤ S200x512.size a
  inb_S200x512_S1x512_95_0 : ∀ a, (![95, 0] : Fin 2 → Nat) a + S1x512.size a ≤ S200x512.size a
  inb_S200x512_S1x512_96_0 : ∀ a, (![96, 0] : Fin 2 → Nat) a + S1x512.size a ≤ S200x512.size a
  inb_S200x512_S1x512_97_0 : ∀ a, (![97, 0] : Fin 2 → Nat) a + S1x512.size a ≤ S200x512.size a
  inb_S200x512_S1x512_98_0 : ∀ a, (![98, 0] : Fin 2 → Nat) a + S1x512.size a ≤ S200x512.size a
  inb_S200x512_S1x512_99_0 : ∀ a, (![99, 0] : Fin 2 → Nat) a + S1x512.size a ≤ S200x512.size a
  inb_S200x512_S1x512_100_0 : ∀ a, (![100, 0] : Fin 2 → Nat) a + S1x512.size a ≤ S200x512.size a
  inb_S200x512_S1x512_101_0 : ∀ a, (![101, 0] : Fin 2 → Nat) a + S1x512.size a ≤ S200x512.size a
  inb_S200x512_S1x512_102_0 : ∀ a, (![102, 0] : Fin 2 → Nat) a + S1x512.size a ≤ S200x512.size a
  inb_S200x512_S1x512_103_0 : ∀ a, (![103, 0] : Fin 2 → Nat) a + S1x512.size a ≤ S200x512.size a
  inb_S200x512_S1x512_104_0 : ∀ a, (![104, 0] : Fin 2 → Nat) a + S1x512.size a ≤ S200x512.size a
  inb_S200x512_S1x512_105_0 : ∀ a, (![105, 0] : Fin 2 → Nat) a + S1x512.size a ≤ S200x512.size a
  inb_S200x512_S1x512_106_0 : ∀ a, (![106, 0] : Fin 2 → Nat) a + S1x512.size a ≤ S200x512.size a
  inb_S200x512_S1x512_107_0 : ∀ a, (![107, 0] : Fin 2 → Nat) a + S1x512.size a ≤ S200x512.size a
  inb_S200x512_S1x512_108_0 : ∀ a, (![108, 0] : Fin 2 → Nat) a + S1x512.size a ≤ S200x512.size a
  inb_S200x512_S1x512_109_0 : ∀ a, (![109, 0] : Fin 2 → Nat) a + S1x512.size a ≤ S200x512.size a
  inb_S200x512_S1x512_110_0 : ∀ a, (![110, 0] : Fin 2 → Nat) a + S1x512.size a ≤ S200x512.size a
  inb_S200x512_S1x512_111_0 : ∀ a, (![111, 0] : Fin 2 → Nat) a + S1x512.size a ≤ S200x512.size a
  inb_S200x512_S1x512_112_0 : ∀ a, (![112, 0] : Fin 2 → Nat) a + S1x512.size a ≤ S200x512.size a
  inb_S200x512_S1x512_113_0 : ∀ a, (![113, 0] : Fin 2 → Nat) a + S1x512.size a ≤ S200x512.size a
  inb_S200x512_S1x512_114_0 : ∀ a, (![114, 0] : Fin 2 → Nat) a + S1x512.size a ≤ S200x512.size a
  inb_S200x512_S1x512_115_0 : ∀ a, (![115, 0] : Fin 2 → Nat) a + S1x512.size a ≤ S200x512.size a
  inb_S200x512_S1x512_116_0 : ∀ a, (![116, 0] : Fin 2 → Nat) a + S1x512.size a ≤ S200x512.size a
  inb_S200x512_S1x512_117_0 : ∀ a, (![117, 0] : Fin 2 → Nat) a + S1x512.size a ≤ S200x512.size a
  inb_S200x512_S1x512_118_0 : ∀ a, (![118, 0] : Fin 2 → Nat) a + S1x512.size a ≤ S200x512.size a
  inb_S200x512_S1x512_119_0 : ∀ a, (![119, 0] : Fin 2 → Nat) a + S1x512.size a ≤ S200x512.size a
  inb_S200x512_S1x512_120_0 : ∀ a, (![120, 0] : Fin 2 → Nat) a + S1x512.size a ≤ S200x512.size a
  inb_S200x512_S1x512_121_0 : ∀ a, (![121, 0] : Fin 2 → Nat) a + S1x512.size a ≤ S200x512.size a
  inb_S200x512_S1x512_122_0 : ∀ a, (![122, 0] : Fin 2 → Nat) a + S1x512.size a ≤ S200x512.size a
  inb_S200x512_S1x512_123_0 : ∀ a, (![123, 0] : Fin 2 → Nat) a + S1x512.size a ≤ S200x512.size a
  inb_S200x512_S1x512_124_0 : ∀ a, (![124, 0] : Fin 2 → Nat) a + S1x512.size a ≤ S200x512.size a
  inb_S200x512_S1x512_125_0 : ∀ a, (![125, 0] : Fin 2 → Nat) a + S1x512.size a ≤ S200x512.size a
  inb_S200x512_S1x512_126_0 : ∀ a, (![126, 0] : Fin 2 → Nat) a + S1x512.size a ≤ S200x512.size a
  inb_S200x512_S1x512_127_0 : ∀ a, (![127, 0] : Fin 2 → Nat) a + S1x512.size a ≤ S200x512.size a
  inb_S200x512_S1x512_128_0 : ∀ a, (![128, 0] : Fin 2 → Nat) a + S1x512.size a ≤ S200x512.size a
  inb_S200x512_S1x512_129_0 : ∀ a, (![129, 0] : Fin 2 → Nat) a + S1x512.size a ≤ S200x512.size a
  inb_S200x512_S1x512_130_0 : ∀ a, (![130, 0] : Fin 2 → Nat) a + S1x512.size a ≤ S200x512.size a
  inb_S200x512_S1x512_131_0 : ∀ a, (![131, 0] : Fin 2 → Nat) a + S1x512.size a ≤ S200x512.size a
  inb_S200x512_S1x512_132_0 : ∀ a, (![132, 0] : Fin 2 → Nat) a + S1x512.size a ≤ S200x512.size a
  inb_S200x512_S1x512_133_0 : ∀ a, (![133, 0] : Fin 2 → Nat) a + S1x512.size a ≤ S200x512.size a
  inb_S200x512_S1x512_134_0 : ∀ a, (![134, 0] : Fin 2 → Nat) a + S1x512.size a ≤ S200x512.size a
  inb_S200x512_S1x512_135_0 : ∀ a, (![135, 0] : Fin 2 → Nat) a + S1x512.size a ≤ S200x512.size a
  inb_S200x512_S1x512_136_0 : ∀ a, (![136, 0] : Fin 2 → Nat) a + S1x512.size a ≤ S200x512.size a
  inb_S200x512_S1x512_137_0 : ∀ a, (![137, 0] : Fin 2 → Nat) a + S1x512.size a ≤ S200x512.size a
  inb_S200x512_S1x512_138_0 : ∀ a, (![138, 0] : Fin 2 → Nat) a + S1x512.size a ≤ S200x512.size a
  inb_S200x512_S1x512_139_0 : ∀ a, (![139, 0] : Fin 2 → Nat) a + S1x512.size a ≤ S200x512.size a
  inb_S200x512_S1x512_140_0 : ∀ a, (![140, 0] : Fin 2 → Nat) a + S1x512.size a ≤ S200x512.size a
  inb_S200x512_S1x512_141_0 : ∀ a, (![141, 0] : Fin 2 → Nat) a + S1x512.size a ≤ S200x512.size a
  inb_S200x512_S1x512_142_0 : ∀ a, (![142, 0] : Fin 2 → Nat) a + S1x512.size a ≤ S200x512.size a
  inb_S200x512_S1x512_143_0 : ∀ a, (![143, 0] : Fin 2 → Nat) a + S1x512.size a ≤ S200x512.size a
  inb_S200x512_S1x512_144_0 : ∀ a, (![144, 0] : Fin 2 → Nat) a + S1x512.size a ≤ S200x512.size a
  inb_S200x512_S1x512_145_0 : ∀ a, (![145, 0] : Fin 2 → Nat) a + S1x512.size a ≤ S200x512.size a
  inb_S200x512_S1x512_146_0 : ∀ a, (![146, 0] : Fin 2 → Nat) a + S1x512.size a ≤ S200x512.size a
  inb_S200x512_S1x512_147_0 : ∀ a, (![147, 0] : Fin 2 → Nat) a + S1x512.size a ≤ S200x512.size a
  inb_S200x512_S1x512_148_0 : ∀ a, (![148, 0] : Fin 2 → Nat) a + S1x512.size a ≤ S200x512.size a
  inb_S200x512_S1x512_149_0 : ∀ a, (![149, 0] : Fin 2 → Nat) a + S1x512.size a ≤ S200x512.size a
  inb_S200x512_S1x512_150_0 : ∀ a, (![150, 0] : Fin 2 → Nat) a + S1x512.size a ≤ S200x512.size a
  inb_S200x512_S1x512_151_0 : ∀ a, (![151, 0] : Fin 2 → Nat) a + S1x512.size a ≤ S200x512.size a
  inb_S200x512_S1x512_152_0 : ∀ a, (![152, 0] : Fin 2 → Nat) a + S1x512.size a ≤ S200x512.size a
  inb_S200x512_S1x512_153_0 : ∀ a, (![153, 0] : Fin 2 → Nat) a + S1x512.size a ≤ S200x512.size a
  inb_S200x512_S1x512_154_0 : ∀ a, (![154, 0] : Fin 2 → Nat) a + S1x512.size a ≤ S200x512.size a
  inb_S200x512_S1x512_155_0 : ∀ a, (![155, 0] : Fin 2 → Nat) a + S1x512.size a ≤ S200x512.size a
  inb_S200x512_S1x512_156_0 : ∀ a, (![156, 0] : Fin 2 → Nat) a + S1x512.size a ≤ S200x512.size a
  inb_S200x512_S1x512_157_0 : ∀ a, (![157, 0] : Fin 2 → Nat) a + S1x512.size a ≤ S200x512.size a
  inb_S200x512_S1x512_158_0 : ∀ a, (![158, 0] : Fin 2 → Nat) a + S1x512.size a ≤ S200x512.size a
  inb_S200x512_S1x512_159_0 : ∀ a, (![159, 0] : Fin 2 → Nat) a + S1x512.size a ≤ S200x512.size a
  inb_S200x512_S1x512_160_0 : ∀ a, (![160, 0] : Fin 2 → Nat) a + S1x512.size a ≤ S200x512.size a
  inb_S200x512_S1x512_161_0 : ∀ a, (![161, 0] : Fin 2 → Nat) a + S1x512.size a ≤ S200x512.size a
  inb_S200x512_S1x512_162_0 : ∀ a, (![162, 0] : Fin 2 → Nat) a + S1x512.size a ≤ S200x512.size a
  inb_S200x512_S1x512_163_0 : ∀ a, (![163, 0] : Fin 2 → Nat) a + S1x512.size a ≤ S200x512.size a
  inb_S200x512_S1x512_164_0 : ∀ a, (![164, 0] : Fin 2 → Nat) a + S1x512.size a ≤ S200x512.size a
  inb_S200x512_S1x512_165_0 : ∀ a, (![165, 0] : Fin 2 → Nat) a + S1x512.size a ≤ S200x512.size a
  inb_S200x512_S1x512_166_0 : ∀ a, (![166, 0] : Fin 2 → Nat) a + S1x512.size a ≤ S200x512.size a
  inb_S200x512_S1x512_167_0 : ∀ a, (![167, 0] : Fin 2 → Nat) a + S1x512.size a ≤ S200x512.size a
  inb_S200x512_S1x512_168_0 : ∀ a, (![168, 0] : Fin 2 → Nat) a + S1x512.size a ≤ S200x512.size a
  inb_S200x512_S1x512_169_0 : ∀ a, (![169, 0] : Fin 2 → Nat) a + S1x512.size a ≤ S200x512.size a
  inb_S200x512_S1x512_170_0 : ∀ a, (![170, 0] : Fin 2 → Nat) a + S1x512.size a ≤ S200x512.size a
  inb_S200x512_S1x512_171_0 : ∀ a, (![171, 0] : Fin 2 → Nat) a + S1x512.size a ≤ S200x512.size a
  inb_S200x512_S1x512_172_0 : ∀ a, (![172, 0] : Fin 2 → Nat) a + S1x512.size a ≤ S200x512.size a
  inb_S200x512_S1x512_173_0 : ∀ a, (![173, 0] : Fin 2 → Nat) a + S1x512.size a ≤ S200x512.size a
  inb_S200x512_S1x512_174_0 : ∀ a, (![174, 0] : Fin 2 → Nat) a + S1x512.size a ≤ S200x512.size a
  inb_S200x512_S1x512_175_0 : ∀ a, (![175, 0] : Fin 2 → Nat) a + S1x512.size a ≤ S200x512.size a
  inb_S200x512_S1x512_176_0 : ∀ a, (![176, 0] : Fin 2 → Nat) a + S1x512.size a ≤ S200x512.size a
  inb_S200x512_S1x512_177_0 : ∀ a, (![177, 0] : Fin 2 → Nat) a + S1x512.size a ≤ S200x512.size a
  inb_S200x512_S1x512_178_0 : ∀ a, (![178, 0] : Fin 2 → Nat) a + S1x512.size a ≤ S200x512.size a
  inb_S200x512_S1x512_179_0 : ∀ a, (![179, 0] : Fin 2 → Nat) a + S1x512.size a ≤ S200x512.size a
  inb_S200x512_S1x512_180_0 : ∀ a, (![180, 0] : Fin 2 → Nat) a + S1x512.size a ≤ S200x512.size a
  inb_S200x512_S1x512_181_0 : ∀ a, (![181, 0] : Fin 2 → Nat) a + S1x512.size a ≤ S200x512.size a
  inb_S200x512_S1x512_182_0 : ∀ a, (![182, 0] : Fin 2 → Nat) a + S1x512.size a ≤ S200x512.size a
  inb_S200x512_S1x512_183_0 : ∀ a, (![183, 0] : Fin 2 → Nat) a + S1x512.size a ≤ S200x512.size a
  inb_S200x512_S1x512_184_0 : ∀ a, (![184, 0] : Fin 2 → Nat) a + S1x512.size a ≤ S200x512.size a
  inb_S200x512_S1x512_185_0 : ∀ a, (![185, 0] : Fin 2 → Nat) a + S1x512.size a ≤ S200x512.size a
  inb_S200x512_S1x512_186_0 : ∀ a, (![186, 0] : Fin 2 → Nat) a + S1x512.size a ≤ S200x512.size a
  inb_S200x512_S1x512_187_0 : ∀ a, (![187, 0] : Fin 2 → Nat) a + S1x512.size a ≤ S200x512.size a
  inb_S200x512_S1x512_188_0 : ∀ a, (![188, 0] : Fin 2 → Nat) a + S1x512.size a ≤ S200x512.size a
  inb_S200x512_S1x512_189_0 : ∀ a, (![189, 0] : Fin 2 → Nat) a + S1x512.size a ≤ S200x512.size a
  inb_S200x512_S1x512_190_0 : ∀ a, (![190, 0] : Fin 2 → Nat) a + S1x512.size a ≤ S200x512.size a
  inb_S200x512_S1x512_191_0 : ∀ a, (![191, 0] : Fin 2 → Nat) a + S1x512.size a ≤ S200x512.size a
  inb_S200x512_S1x512_192_0 : ∀ a, (![192, 0] : Fin 2 → Nat) a + S1x512.size a ≤ S200x512.size a
  inb_S200x512_S1x512_193_0 : ∀ a, (![193, 0] : Fin 2 → Nat) a + S1x512.size a ≤ S200x512.size a
  inb_S200x512_S1x512_194_0 : ∀ a, (![194, 0] : Fin 2 → Nat) a + S1x512.size a ≤ S200x512.size a
  inb_S200x512_S1x512_195_0 : ∀ a, (![195, 0] : Fin 2 → Nat) a + S1x512.size a ≤ S200x512.size a
  inb_S200x512_S1x512_196_0 : ∀ a, (![196, 0] : Fin 2 → Nat) a + S1x512.size a ≤ S200x512.size a
  inb_S200x512_S1x512_197_0 : ∀ a, (![197, 0] : Fin 2 → Nat) a + S1x512.size a ≤ S200x512.size a
  inb_S200x512_S1x512_198_0 : ∀ a, (![198, 0] : Fin 2 → Nat) a + S1x512.size a ≤ S200x512.size a
  inb_S200x512_S1x512_199_0 : ∀ a, (![199, 0] : Fin 2 → Nat) a + S1x512.size a ≤ S200x512.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S1x4096_p1_0_S4096x1 : S1x4096.Transposes [1, 0] S4096x1
  bitsLt_bf16_f32 : FTy.bits .bf16 < FTy.bits .f32
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  dot_S512x4096_S4096x1_S512x1_1_0_0_1_n_n_wf : DotDims.WF S512x4096 S4096x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x512.size a ≤ S200x4096.size a
  hwx0_0 : ∀ i : grid0.Coords, EltTy.bits .i32 = 32 ∨ (Rect.block (s := S200x4096) S200x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x53248.size a
  hwx0_1 : ∀ i : grid0.Coords, EltTy.bits .f32 = 32 ∨ (Rect.block (s := S1x53248) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x4096_S4096x1_S512x1_1_0_0_1_n_n : DotDims S512x4096 S4096x1 S512x1 where
  lhsContracting := [1]
  rhsContracting := [0]
  lhsNonContracting := [0]
  rhsNonContracting := [1]
  lhsBatch := []
  rhsBatch := []
  wf := dot_S512x4096_S4096x1_S512x1_1_0_0_1_n_n_wf

abbrev win0_0 : Pipeline.Window sig grid0 :=
  Pipeline.Window.ofSpec (Memref.whole main_arg0) S200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200x4096 : Shape := ⟨2, ![200, 4096]⟩
abbrev S1x50000 : Shape := ⟨2, ![1, 50000]⟩
abbrev S1 : Shape := ⟨1, ![1]⟩
abbrev S4096 : Shape := ⟨1, ![4096]⟩
abbrev S4096x1 : Shape := ⟨2, ![4096, 1]⟩
abbrev S_ : Shape := ⟨0, ![]⟩
abbrev S4096x50000 : Shape := ⟨2, ![4096, 50000]⟩
abbrev S4096x200 : Shape := ⟨2, ![4096, 200]⟩
abbrev S4096x200x1 : Shape := ⟨3, ![4096, 200, 1]⟩
abbrev S4096x200x2 : Shape := ⟨3, ![4096, 200, 2]⟩
abbrev S50000x1 : Shape := ⟨2, ![50000, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S200x4096, .i32⟩
  | .hbm, ⟨1, _⟩ => ⟨S1x50000, .f32⟩
  | .hbm, ⟨2, _⟩ => ⟨S1, .f32⟩
  | .hbm, ⟨3, _⟩ => ⟨S4096, .i32⟩
  | .hbm, ⟨4, _⟩ => ⟨S4096x1, .i32⟩
  | .hbm, ⟨5, _⟩ => ⟨S_, .f32⟩
  | .hbm, ⟨6, _⟩ => ⟨S4096x50000, .f32⟩
  | .hbm, ⟨7, _⟩ => ⟨S4096x200, .i32⟩
  | .hbm, ⟨8, _⟩ => ⟨S_, .i32⟩
  | .hbm, ⟨9, _⟩ => ⟨S4096x1, .i32⟩
  | .hbm, ⟨10, _⟩ => ⟨S4096x1, .i1⟩
  | .hbm, ⟨11, _⟩ => ⟨S_, .i32⟩
  | .hbm, ⟨12, _⟩ => ⟨S4096x1, .i32⟩
  | .hbm, ⟨13, _⟩ => ⟨S4096x1, .i32⟩
  | .hbm, ⟨14, _⟩ => ⟨S4096x1, .i32⟩
  | .hbm, ⟨15, _⟩ => ⟨S_, .i32⟩
  | .hbm, ⟨16, _⟩ => ⟨S4096x200, .i32⟩
  | .hbm, ⟨17, _⟩ => ⟨S4096x200, .i1⟩
  | .hbm, ⟨18, _⟩ => ⟨S_, .i32⟩
  | .hbm, ⟨19, _⟩ => ⟨S4096x200, .i32⟩
  | .hbm, ⟨20, _⟩ => ⟨S4096x200, .i32⟩
  | .hbm, ⟨21, _⟩ => ⟨S4096x200, .i32⟩
  | .hbm, ⟨22, _⟩ => ⟨S4096x200, .i32⟩
  | .hbm, ⟨23, _⟩ => ⟨S4096x200x1, .i32⟩
  | .hbm, ⟨24, _⟩ => ⟨S4096x200x1, .i32⟩
  | .hbm, ⟨25, _⟩ => ⟨S4096x200x2, .i32⟩
  | .hbm, ⟨26, _⟩ => ⟨S_, .f32⟩
  | .hbm, ⟨27, _⟩ => ⟨S4096x200, .f32⟩
  | .hbm, ⟨28, _⟩ => ⟨S4096x50000, .f32⟩
  | .hbm, ⟨29, _⟩ => ⟨S50000x1, .f32⟩
  | .hbm, ⟨30, _⟩ => ⟨S4096x1, .f32⟩
  | .hbm, ⟨31, _⟩ => ⟨S1x1, .f32⟩
  | .hbm, ⟨32, _⟩ => ⟨S4096x1, .f32⟩
  | .hbm, ⟨33, _⟩ => ⟨S4096x1, .f32⟩
  | _, _ => ⟨S200x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x50000 : S_.BroadcastsInDim S4096x50000 (![] : Fin 0 → Fin S4096x50000.rank)
  transposes_S200x4096_S4096x200_1_0 : S200x4096.Transposes [1, 0] S4096x200
  bcast_S_S4096x1 : S_.BroadcastsInDim S4096x1 (![] : Fin 0 → Fin S4096x1.rank)
  bcast_S_S4096x200 : S_.BroadcastsInDim S4096x200 (![] : Fin 0 → Fin S4096x200.rank)
  bcast_S4096x1_S4096x200_0_1 : S4096x1.BroadcastsInDim S4096x200 (![0, 1] : Fin 2 → Fin S4096x200.rank)
  bcast_S4096x200_S4096x200x1_0_1 : S4096x200.BroadcastsInDim S4096x200x1 (![0, 1] : Fin 2 → Fin S4096x200x1.rank)
  concatenates_S4096x200x1_S4096x200x1_S4096x200x2_d2 : Shape.Concatenates [S4096x200x1, S4096x200x1] S4096x200x2 2
  transposes_S1x50000_S50000x1_1_0 : S1x50000.Transposes [1, 0] S50000x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S4096x50000_S4096x200x2_S4096x200_n_01_01_2_wf : ScatterDims.WF S4096x50000 S4096x200x2 S4096x200 [] [0, 1] [0, 1] 2
  dot_S4096x50000_S50000x1_S4096x1_1_0_0_1_n_n_wf : DotDims.WF S4096x50000 S50000x1 S4096x1 [1] [0] [0] [1] [] []

variable [Facts₀]

def scatter_S4096x50000_S4096x200x2_S4096x200_n_01_01_2 : ScatterDims S4096x50000 S4096x200x2 S4096x200 where
  updateWindowDims := []
  insertedWindowDims := [0, 1]
  scatterDimsToOperandDims := [0, 1]
  indexVectorDim := 2
  wf := scatter_S4096x50000_S4096x200x2_S4096x200_n_01_01_2_wf
def dot_S4096x50000_S50000x1_S4096x1_1_0_0_1_n_n : DotDims S4096x50000 S50000x1 S4096x1 where
  lhsContracting := [1]
  rhsContracting := [0]
  lhsNonContracting := [0]
  rhsNonContracting := [1]
  lhsBatch := []
  rhsBatch := []
  wf := dot_S4096x50000_S50000x1_S4096x1_1_0_0_1_n_n_wf

class Facts : Prop extends Facts₀ where

variable [Facts]
-- ==== Proof.KDefs.lean ====
/-
  The kernel body's arithmetic, named.

  At one grid point the body holds a block of 200 token rows for 512 documents and a tile of 4096 consecutive
  vocabulary ids.  It starts from the zero matrix and, row by row, raises entry (document, id) to one where the
  row's token for that document equals the id (`step`): after all rows the matrix is the presence indicator of the
  tile's ids in the block's documents (`presUpTo … 200`).  The matrix is then multiplied with the tile of weights,
  the product added to the running sum, and the running sum plus the bias is the output block.
-/
import proofs.«411630_j8151847928093_1_alg».proof.Proof.Gen.KernelIdeal.Frame

noncomputable section

namespace Cert.KernelIdeal.KV

open Idealize.ShloMosaic Idealize.ShloMosaic.TcCoe Idealize.SL.Sem
open Cert.KernelIdeal Cert.KernelIdeal.Gen

variable {F : FTy → Type} [FloatOps F]

/-- One row of tokens compared with the tile's ids: entry (document, id) is raised to one where they are equal. -/
def step (ids : IVec S1x4096 32) (acc : FVec F S512x4096 .f32) (row : Vec F S1x512 .i32) : FVec F S512x4096 .f32 :=
  maximumf acc (sitofp .f32 (extui 32 (cmpi .eq
    (broadcastTo S512x4096 (shapeCast S512x1 (shapeCast S512 row shapeCasts_S1x512_S512) shapeCasts_S512_S512x1) broadcasts_S512x1_S512x4096)
    (broadcastTo S512x4096 ids broadcasts_S1x4096_S512x4096)) natLt_1_32))

/-- Row `t` of the token block: the body's load of the rectangle of one row at offset `(t, 0)`. -/
def rowAt (arg2 : Memref sig .tc .vmem S200x512 .i32) (harg2 : arg2.IsWhole) (x0 : Vec F S200x512 .i32) (t : ℕ) (ht : t < 200) :
    Vec F S1x512 .i32 :=
  View.readAt (Elt F) arg2.view (Rect.unit (s := S200x512) ![t, 0] S1x512.size (fun a => by
    match a with
    | ⟨0, _⟩ => show t + 1 ≤ 200; omega
    | ⟨1, _⟩ => show 0 + 512 ≤ 512; omega)).toLoadRect (harg2.unread x0)

/-- The matrix after the first `n` rows. -/
def presUpTo (ids : IVec S1x4096 32) (rows : (t : ℕ) → t < 200 → Vec F S1x512 .i32) : (n : ℕ) → n ≤ 200 → FVec F S512x4096 .f32
  | 0, _ => broadcast S512x4096 (Scalar.ofBits .f32 0x00000000#32)
  | n + 1, h => step ids (presUpTo ids rows n (Nat.le_of_succ_le h)) (rows n h)

/-- One grid point's update of the running sum: the presence matrix of the tile times the tile's weights, added to
    the sum so far. -/
def tileScore (ids : IVec S1x4096 32) (rows : (t : ℕ) → t < 200 → Vec F S1x512 .i32) (w : Vec F S1x4096 .f32)
    (acc : Vec F S512x1 .f32) : FVec F S512x1 .f32 :=
  k0_pay66 (presUpTo ids rows 200 (Nat.le_refl _)) (k0_pay65 w) acc

/-- The grid has 8 · 13 = 104 points: point t is document block t / 13, vocabulary tile t % 13. -/
theorem tval_lt (t : Fin cfg0.N) : t.val < 104 := lt_of_lt_of_eq t.isLt N_0

/-- The document that row p of the block at point t belongs to. -/
def docOf (t : Fin cfg0.N) (p : Fin 512) : Fin 4096 :=
  ⟨(t.val / 13) * 512 + p.val, by have := tval_lt t; have := p.isLt; omega⟩

/-- The padded-vocabulary position of id k of the tile at point t. -/
def vocOf (t : Fin cfg0.N) (k : Fin 4096) : Fin 53248 :=
  ⟨(t.val % 13) * 4096 + k.val, by have := k.isLt; have := Nat.mod_lt t.val (show 13 > 0 by decide); omega⟩

variable (m : (ℓ : Loc nD τ sig) → Buf (Elt F) ℓ)

/-- The token block the body sees at point t. -/
abbrev tokBlk (c : Dev nD) (t : Fin cfg0.N) : Vec F S200x512 .i32 := iblk m c 0 t
/-- The weight tile the body sees at point t. -/
abbrev wBlk (c : Dev nD) (t : Fin cfg0.N) : Vec F S1x4096 .f32 := iblk m c 1 t
/-- The bias the body sees at point t. -/
abbrev bBlk (c : Dev nD) (t : Fin cfg0.N) : Vec F S1 .f32 := iblk m c 2 t

/-- The token array as launched. -/
abbrev textArr (c : Dev nD) : IVec S200x4096 32 := m ((c : Thread nD τ).loc main_arg0)
/-- The weight array as launched. -/
abbrev wArr (c : Dev nD) : FVec F S1x50000 .f32 := m ((c : Thread nD τ).loc main_arg1)
/-- The bias array as launched. -/
abbrev bArr (c : Dev nD) : FVec F S1 .f32 := m ((c : Thread nD τ).loc main_arg2)

end Cert.KernelIdeal.KV

end
-- ==== Proof.KPieces.lean ====
/-
  What the body leaves in the running-sum scratch and in the output block, per case.

  At a first tile (case A) the scratch is reset to zero and then updated; at a later tile (case B) the scratch the
  point before left is updated.  In both cases the output block is the updated running sum plus the bias.  The two
  hundred row steps of the body are the recursion `presUpTo` unfolded.
-/
import proofs.«411630_j8151847928093_1_alg».proof.Proof.KDefs
import Idealize.ShloMosaic.Lib.Pipeline.Value
import Idealize.ShloMosaic.Lib.Tactic

set_option maxRecDepth 65536

noncomputable section

namespace Cert.KernelIdeal.KV

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A load of a whole buffer after stores of which the LAST wrote the whole buffer reads that store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Case B: the scratch ends at the update of what the point before left. -/
theorem sout_B (c : Dev nD) (i : grid0.Coords) (arg2 : Memref sig .tc .vmem S200x512 .i32) (harg2 : arg2.IsWhole) (arg3 : Memref sig .tc .vmem S1x4096 .f32) (harg3 : arg3.IsWhole) (arg4 : Memref sig .tc .vmem S1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S200x512 .i32) (x1 : Vec F S1x4096 .f32) (x2 : Vec F S1 .f32) (xs0 : Vec F S512x1 .f32) :
    sout0_B_0 c i arg2 harg2 arg3 harg3 arg4 harg4 arg5 harg5 arg6 harg6 hc0 x0 x1 x2 xs0
      = tileScore (k0_pay2 i) (rowAt arg2 harg2 x0) x1 xs0 := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero hz2]
  have e3 : View.readAt (Elt F) arg3.view (Rect.unit ![0, 0] S1x4096.size inb_S1x4096_S1x4096_0_0).toLoadRect (harg3.unread x1) = x1 := by
    simp only [View.readAt_eq_ld, harg3.read_unread, View.ld_unit_zero (S := S1x4096) hz2]
  have e6 : View.readAt (Elt F) arg6.view (Rect.unit ![0, 0] S512x1.size inb_S512x1_S512x1_0_0).toLoadRect (harg6.unread xs0) = xs0 := by
    simp only [View.readAt_eq_ld, harg6.read_unread, View.ld_unit_zero (S := S512x1) hz2]
  rw [e3, e6]
  rfl

/-- Case A: the scratch is reset to zero and then updated. -/
theorem sout_A (c : Dev nD) (i : grid0.Coords) (arg2 : Memref sig .tc .vmem S200x512 .i32) (harg2 : arg2.IsWhole) (arg3 : Memref sig .tc .vmem S1x4096 .f32) (harg3 : arg3.IsWhole) (arg4 : Memref sig .tc .vmem S1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S200x512 .i32) (x1 : Vec F S1x4096 .f32) (x2 : Vec F S1 .f32) :
    sout0_A_0 c i arg2 harg2 arg3 harg3 arg4 harg4 arg5 harg5 arg6 harg6 hc0 x0 x1 x2
      = tileScore (k0_pay2 i) (rowAt arg2 harg2 x0) x1 (k0_pay1 (F := F)) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S512x1) hz2, View.readCov_unit_zero (S := S512x1) _ hz2]
  have e3 : View.readAt (Elt F) arg3.view (Rect.unit ![0, 0] S1x4096.size inb_S1x4096_S1x4096_0_0).toLoadRect (harg3.unread x1) = x1 := by
    simp only [View.readAt_eq_ld, harg3.read_unread, View.ld_unit_zero (S := S1x4096) hz2]
  rw [e3]
  rfl

/-- Case B: the output block is the updated running sum plus the bias. -/
theorem out_B (c : Dev nD) (i : grid0.Coords) (arg2 : Memref sig .tc .vmem S200x512 .i32) (harg2 : arg2.IsWhole) (arg3 : Memref sig .tc .vmem S1x4096 .f32) (harg3 : arg3.IsWhole) (arg4 : Memref sig .tc .vmem S1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S200x512 .i32) (x1 : Vec F S1x4096 .f32) (x2 : Vec F S1 .f32) (xs0 : Vec F S512x1 .f32) :
    out0_B_3 c i arg2 harg2 arg3 harg3 arg4 harg4 arg5 harg5 arg6 harg6 hc0 x0 x1 x2 xs0
      = k0_pay67 (tileScore (k0_pay2 i) (rowAt arg2 harg2 x0) x1 xs0) x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz2, View.readCov_unit_zero (S := S512x1) _ hz2]
  have e3 : View.readAt (Elt F) arg3.view (Rect.unit ![0, 0] S1x4096.size inb_S1x4096_S1x4096_0_0).toLoadRect (harg3.unread x1) = x1 := by
    simp only [View.readAt_eq_ld, harg3.read_unread, View.ld_unit_zero (S := S1x4096) hz2]
  have e6 : View.readAt (Elt F) arg6.view (Rect.unit ![0, 0] S512x1.size inb_S512x1_S512x1_0_0).toLoadRect (harg6.unread xs0) = xs0 := by
    simp only [View.readAt_eq_ld, harg6.read_unread, View.ld_unit_zero (S := S512x1) hz2]
  have e4 : View.readAt (Elt F) arg4.view (Rect.unit ![0] S1.size inb_S1_S1_0).toLoadRect (harg4.unread x2) = x2 := by
    simp only [View.readAt_eq_ld, harg4.read_unread, View.ld_unit_zero (S := S1) hz1]
  rw [e3, e6, e4]
  rfl

/-- Case A: the output block is the updated running sum plus the bias. -/
theorem out_A (c : Dev nD) (i : grid0.Coords) (arg2 : Memref sig .tc .vmem S200x512 .i32) (harg2 : arg2.IsWhole) (arg3 : Memref sig .tc .vmem S1x4096 .f32) (harg3 : arg3.IsWhole) (arg4 : Memref sig .tc .vmem S1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S200x512 .i32) (x1 : Vec F S1x4096 .f32) (x2 : Vec F S1 .f32) :
    out0_A_3 c i arg2 harg2 arg3 harg3 arg4 harg4 arg5 harg5 arg6 harg6 hc0 x0 x1 x2
      = k0_pay67 (tileScore (k0_pay2 i) (rowAt arg2 harg2 x0) x1 (k0_pay1 (F := F))) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz2, readCov_cons_unit_zero _ hz2, View.readCov_unit_zero (S := S512x1) _ hz2]
  have e3 : View.readAt (Elt F) arg3.view (Rect.unit ![0, 0] S1x4096.size inb_S1x4096_S1x4096_0_0).toLoadRect (harg3.unread x1) = x1 := by
    simp only [View.readAt_eq_ld, harg3.read_unread, View.ld_unit_zero (S := S1x4096) hz2]
  have e4 : View.readAt (Elt F) arg4.view (Rect.unit ![0] S1.size inb_S1_S1_0).toLoadRect (harg4.unread x2) = x2 := by
    simp only [View.readAt_eq_ld, harg4.read_unread, View.ld_unit_zero (S := S1) hz1]
  rw [e3, e4]
  rfl

end Cert.KernelIdeal.KV

end
-- ==== Proof.KIndex.lean ====
/-
  The presence matrix read at one entry.

  Entry (document p, id q) of the matrix after n rows is one when one of the first n rows holds, for document p, the
  token equal to the tile's id q, and zero otherwise: each row either raises the entry to one or leaves it, and the
  maximum of zeros and ones is one exactly when a one occurs.
-/
import proofs.«411630_j8151847928093_1_alg».proof.Proof.KDefs
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Idealize.ShloMosaic Idealize.ShloMosaic.TcCoe Idealize.ShloMosaic.ValueIdx Idealize.SL.Sem
open Cert.KernelIdeal Cert.KernelIdeal.Gen

/-- A vector of length a cast to the column shape [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the operand at (p, 0). -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exact real of the zero-extended equality bit of two words: one when they are equal, zero when not. -/
private theorem sitofp_cmpi_eq (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    rw [if_pos rfl]
    have e : (IntOp.cmpi .eq a a).setWidth 32 = 1#32 := by simp [IntOp.cmpi]
    rw [e]
    norm_num
  · rw [if_neg h]
    have hb : (a == b) = false := beq_eq_false_iff_ne.mpr h
    have e : (IntOp.cmpi .eq a b).setWidth 32 = 0#32 := by
      show BitVec.setWidth 32 (BitVec.ofBool (a == b)) = 0#32
      rw [hb]; rfl
    rw [e]
    simp

/-- The tile's ids: at grid point (·, vi) id number q is vi * 4096 + q. -/
theorem ids_apply (i : grid0.Coords) (q : Fin 4096) :
    k0_pay2 i (ix2 (0 : Fin 1) q) = BitVec.ofNat 32 ((i 1).val * 4096 + q.val) := by
  -- the payload at an entry: the broadcast product plus the column counter
  show IntOp.addi (Scalar.muli (BitVec.ofNat 32 (i 1).val) 4096#32)
    (iota .tc S1x4096 32 [1] iota_S1x4096_d1_w32 (ix2 (0 : Fin 1) q)) = _
  rw [iota_single_apply]
  show (BitVec.ofNat 32 (i 1).val) * 4096#32 + BitVec.ofNat 32 q.val = _
  -- both sides are the same natural modulo 2 ^ 32
  apply BitVec.eq_of_toNat_eq
  simp only [BitVec.toNat_add, BitVec.toNat_mul, BitVec.toNat_ofNat]
  omega

/-- Row t of the token block, at document p, is the block's entry (t, p). -/
theorem rowAt_apply {F : FTy → Type} [FloatOps F] (arg2 : Memref sig .tc .vmem S200x512 .i32) (harg2 : arg2.IsWhole)
    (x0 : Vec F S200x512 .i32) (t : ℕ) (ht : t < 200) (p : Fin 512) :
    rowAt arg2 harg2 x0 t ht (ix2 (0 : Fin 1) p) = x0 (ix2 (⟨t, ht⟩ : Fin 200) p) := by
  unfold rowAt
  rw [View.readAt_eq_ld, harg2.read_unread]
  -- the rectangle of one row at offset (t, 0) places (0, p) at (t + 1 * 0, 0 + 1 * p)
  show x0 _ = x0 _
  congr 1
  funext a
  apply Fin.ext
  match a with
  | ⟨0, _⟩ => show t + 1 * 0 = t; omega
  | ⟨1, _⟩ => show 0 + 1 * p.val = p.val; omega

/-- One row's step at an entry: the larger of the entry so far and the indicator that the row's token for the
    document equals the id. -/
theorem step_apply (ids : IVec S1x4096 32) (acc : FVec Ideal S512x4096 .f32) (row : Vec Ideal S1x512 .i32)
    (p : Fin 512) (q : Fin 4096) :
    step (F := Ideal) ids acc row (ix2 p q)
      = max (acc (ix2 p q)) (if row (ix2 (0 : Fin 1) p) = ids (ix2 (0 : Fin 1) q) then (1 : EReal) else 0) := by
  unfold step
  rw [maximumf_apply, sitofp_apply, extui_apply]
  show max _ (FloatOps.sitofp FTy.f32 (BitVec.setWidth 32 (IntOp.cmpi .eq
    (broadcastTo S512x4096 (shapeCast S512x1 (shapeCast S512 row shapeCasts_S1x512_S512) shapeCasts_S512_S512x1)
      broadcasts_S512x1_S512x4096 (ix2 p q))
    (broadcastTo S512x4096 ids broadcasts_S1x4096_S512x4096 (ix2 p q))))) = _
  -- the two broadcasts and the two shape casts read row (0, p) and ids (0, q); then the equality bit as a real
  rw [broadcastTo_1b_ab_apply, broadcastTo_a1_ab_apply, shapeCast_a_a1_apply, shapeCast_1a_a_apply, sitofp_cmpi_eq]

/-- The matrix after n rows at an entry: one when some row before n matches, else zero. -/
theorem pres_apply (ids : IVec S1x4096 32) (rows : (t : ℕ) → t < 200 → Vec Ideal S1x512 .i32) (n : ℕ) (h : n ≤ 200)
    (p : Fin 512) (q : Fin 4096) :
    presUpTo (F := Ideal) ids rows n h (ix2 p q)
      = open Classical in
        if ∃ t : Fin 200, t.val < n ∧ rows t.val t.isLt (ix2 (0 : Fin 1) p) = ids (ix2 (0 : Fin 1) q) then (1 : EReal) else 0 := by
  induction n with
  | zero =>
    -- no row yet: the zero matrix, and no witness below zero
    rw [if_neg (by rintro ⟨t, ht, _⟩; omega)]
    show Ideal.ofBits .f32 0x00000000#32 = 0
    exact Ideal.ofBits_zero_f32
  | succ n ih =>
    show step ids (presUpTo ids rows n _) (rows n h) (ix2 p q) = _
    rw [step_apply, ih]
    -- a witness below n + 1 is a witness below n, or row n itself
    have key : (∃ t : Fin 200, t.val < n + 1 ∧ rows t.val t.isLt (ix2 (0 : Fin 1) p) = ids (ix2 (0 : Fin 1) q)) ↔
        ((∃ t : Fin 200, t.val < n ∧ rows t.val t.isLt (ix2 (0 : Fin 1) p) = ids (ix2 (0 : Fin 1) q)) ∨
          rows n h (ix2 (0 : Fin 1) p) = ids (ix2 (0 : Fin 1) q)) := by
      constructor
      · rintro ⟨t, ht, e⟩
        rcases Nat.lt_succ_iff_lt_or_eq.mp ht with h1 | h1
        · exact Or.inl ⟨t, h1, e⟩
        · right
          have ht' : t = ⟨n, h⟩ := Fin.ext h1
          subst ht'
          exact e
      · rintro (⟨t, ht, e⟩ | e)
        · exact ⟨t, Nat.lt_succ_of_lt ht, e⟩
        · exact ⟨⟨n, h⟩, Nat.lt_succ_self n, e⟩
    by_cases he : ∃ t : Fin 200, t.val < n ∧ rows t.val t.isLt (ix2 (0 : Fin 1) p) = ids (ix2 (0 : Fin 1) q)
    · by_cases hn : rows n h (ix2 (0 : Fin 1) p) = ids (ix2 (0 : Fin 1) q)
      · rw [if_pos he, if_pos hn, if_pos (key.mpr (Or.inl he))]
        exact max_self _
      · rw [if_pos he, if_neg hn, if_pos (key.mpr (Or.inl he))]
        exact max_eq_left zero_le_one
    · by_cases hn : rows n h (ix2 (0 : Fin 1) p) = ids (ix2 (0 : Fin 1) q)
      · rw [if_neg he, if_pos hn, if_pos (key.mpr (Or.inr hn))]
        exact max_eq_right zero_le_one
      · rw [if_neg he, if_neg hn, if_neg (fun hh => (key.mp hh).elim he hn)]
        exact max_self _

end Cert.KernelIdeal.KV

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KMatmul.lean ====
/-
  The update of the running sum read at one document.

  The tile's weights arrive as a row and are turned into a column; the product of the presence matrix with that
  column is, for document p, the sum over the tile's 4096 ids of presence times weight; the change of float format
  before the product is the identity on extended reals.  The update adds this to the running sum, and the output
  block adds the bias to the running sum.
-/
import proofs.«411630_j8151847928093_1_alg».proof.Proof.KDefs
import proofs.«411630_j8151847928093_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Idealize.ShloMosaic Idealize.ShloMosaic.TcCoe Idealize.ShloMosaic.ValueIdx Idealize.SL.Sem
open Cert.KernelIdeal Cert.KernelIdeal.Gen

/-- The weights' column at (k, 0) is the row at (0, k): a cast to the same shape, then the transposition. -/
theorem column_apply (w : Vec Ideal S1x4096 .f32) (k : Fin 4096) :
    k0_pay65 (F := Ideal) w (ix2 k (0 : Fin 1)) = w (ix2 (0 : Fin 1) k) := by
  show transpose S4096x1 [1, 0] (shapeCast S1x4096 w shapeCasts_S1x4096_S1x4096) transposes_S1x4096_p1_0_S4096x1 (ix2 k (0 : Fin 1))
      = w (ix2 (0 : Fin 1) k)
  rw [shapeCast_self]
  exact transpose_apply [1, 0] w transposes_S1x4096_p1_0_S4096x1 (ix2 k (0 : Fin 1)) (ix2 (0 : Fin 1) k) (fun b => match b with
    | ⟨0, _⟩ => rfl
    | ⟨1, _⟩ => rfl)

/-- The update for any presence matrix and any column: the running sum plus the row-by-column sum. -/
theorem update_apply (l : FVec Ideal S512x4096 .f32) (r : FVec Ideal S4096x1 .f32) (acc : Vec Ideal S512x1 .f32) (p : Fin 512) :
    k0_pay66 (F := Ideal) l r acc (ix2 p (0 : Fin 1))
      = acc (ix2 p (0 : Fin 1)) + ∑ k : Fin 4096, l (ix2 p k) * r (ix2 k (0 : Fin 1)) := by
  show shapeCast S512x1 (addf acc (matmul dot_S512x4096_S4096x1_S512x1_1_0_0_1_n_n none
      (truncf .bf16 l bitsLt_bf16_f32) (truncf .bf16 r bitsLt_bf16_f32) (constant (F := Ideal) S512x1 .f32 0x00000000#32)))
      shapeCasts_S512x1_S512x1 (ix2 p (0 : Fin 1)) = _
  rw [shapeCast_self, addf_apply]
  refine congrArg (acc (ix2 p (0 : Fin 1)) + ·) ?_
  simp only [matmul]
  rw [Ideal.matmul_constant_zero_apply]
  exact PlainDot.sum_eq (R := 512) (K := 4096) (C := 1) dot_S512x4096_S4096x1_S512x1_1_0_0_1_n_n rfl rfl rfl rfl rfl rfl
    (fun i => (truncf .bf16 l bitsLt_bf16_f32 : FVec Ideal S512x4096 .bf16) i) (fun i => (truncf .bf16 r bitsLt_bf16_f32 : FVec Ideal S4096x1 .bf16) i) p (0 : Fin 1)

/-- The update at document p: the running sum plus the sum over the tile of presence times weight. -/
theorem tileScore_apply (ids : IVec S1x4096 32) (rows : (t : ℕ) → t < 200 → Vec Ideal S1x512 .i32)
    (w : Vec Ideal S1x4096 .f32) (acc : Vec Ideal S512x1 .f32) (p : Fin 512) :
    tileScore (F := Ideal) ids rows w acc (ix2 p (0 : Fin 1))
      = acc (ix2 p (0 : Fin 1))
        + ∑ k : Fin 4096, presUpTo (F := Ideal) ids rows 200 (Nat.le_refl _) (ix2 p k) * w (ix2 (0 : Fin 1) k) := by
  unfold tileScore
  rw [update_apply]
  refine congrArg (acc (ix2 p (0 : Fin 1)) + ·) (Finset.sum_congr rfl fun k _ => ?_)
  rw [column_apply]

/-- The output block at document p: the running sum plus the bias. -/
theorem bias_apply (a : Vec Ideal S512x1 .f32) (b : Vec Ideal S1 .f32) (p : Fin 512) :
    k0_pay67 (F := Ideal) a b (ix2 p (0 : Fin 1)) = a (ix2 p (0 : Fin 1)) + b (ix1 (0 : Fin 1)) := by
  show addf a (broadcastTo S512x1 (shapeCast (α := Ideal .f32) S1x1 b shapeCasts_S1_S1x1) broadcasts_S1x1_S512x1) (ix2 p (0 : Fin 1)) = _
  rw [addf_apply]
  refine congrArg (a (ix2 p (0 : Fin 1)) + ·) ?_
  refine (broadcastTo_apply (shapeCast (α := Ideal .f32) S1x1 b shapeCasts_S1_S1x1) broadcasts_S1x1_S512x1 (ix2 p (0 : Fin 1)) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])).trans ?_
  exact shapeCast_apply (α := Ideal .f32) b shapeCasts_S1_S1x1 (ix2 (0 : Fin 1) (0 : Fin 1)) (ix1 (0 : Fin 1)) (by decide)

/-- The reset block is zero everywhere. -/
theorem zero_apply (j : S512x1.Idx) : (k0_pay1 (F := Ideal)) j = (0 : EReal) := by
  show shapeCast S512x1 (broadcast S512x1 (Scalar.ofBits .f32 0x00000000#32 : Ideal .f32)) shapeCasts_S512x1_S512x1 j = 0
  rw [shapeCast_self]
  exact Ideal.ofBits_zero_f32

end Cert.KernelIdeal.KV

end
-- ==== Proof.KHost.lean ====
/-
  What the body's blocks hold, in terms of the launched arrays.

  The token block at point t is the 512 document columns of block t / 13 of the token array.  The weight array is
  padded on the host with zeros from 50000 to 53248 ids, and the weight tile at point t is ids (t % 13) · 4096
  onwards of the padded array.  The bias block is the bias array.
-/
import proofs.«411630_j8151847928093_1_alg».proof.Proof.KDefs
import Idealize.ShloMosaic.Lib.ValueIdx
import Idealize.ShloMosaic.Lib.Pipeline.Value
import Idealize.ShloMosaic.Lib.StableHlo.Run
import Idealize.ShloMosaic.Lib.KernelVsHost

noncomputable section

namespace Cert.KernelIdeal.KV

open Idealize.ShloMosaic Idealize.ShloMosaic.TcCoe Idealize.ShloMosaic.ValueIdx Idealize.SL.Sem
open Cert.KernelIdeal Cert.KernelIdeal.Gen

/-! ## The block indices over the grid

  Point t of the 8 × 13 grid is document block t / 13 and vocabulary tile t % 13.  The token window's block index is
  (0, t / 13), the weight window's is (0, t % 13), the bias window's is (0): each decided over the 104 points. -/

private theorem tokIndex : ∀ t : Fin cfg0.N, win0_0.index t 0 = 0 ∧ win0_0.index t 1 = t.val / 13 :=
  (by decide +kernel : ∀ t : Fin grid0.N, win0_0.index t 0 = 0 ∧ win0_0.index t 1 = t.val / 13)

private theorem wIndex : ∀ t : Fin cfg0.N, win0_1.index t 0 = 0 ∧ win0_1.index t 1 = t.val % 13 :=
  (by decide +kernel : ∀ t : Fin grid0.N, win0_1.index t 0 = 0 ∧ win0_1.index t 1 = t.val % 13)

private theorem bIndex : ∀ t : Fin cfg0.N, win0_2.index t 0 = 0 :=
  (by decide +kernel : ∀ t : Fin grid0.N, win0_2.index t 0 = 0)

/-! ## The padded weights

  The host operations before the region are an integer constant 0, its conversion to a float, and the pad of the
  weight array with that value: 3248 entries after the 50000 on the second axis, nothing elsewhere.  The padded
  array is what the weight window stages. -/

private theorem padded_eq (m : (ℓ : Loc nD τ sig) → Buf (Elt Ideal) ℓ) (c : Dev nD) :
    (V m c main_v0 : S1x53248.Idx → EReal)
      = pad S1x53248 ![0, 0] ![0, 3248] ![0, 0] (wArr m c) (sitofp (F := Ideal) .f32 (constantI S_ 32 0#32))
          pads_S1x50000_S1x53248_000_032480 h_S_ := by
  dsimp only [Gen.V]
  simp only [Gen.hostOps0, Gen.hostOps0_1, List.flatten_cons, List.flatten_nil, List.append_nil, List.cons_append, List.nil_append]
  after_results
  rfl

/-! ## The blocks

  An entry of a block sits in its array, on each axis, at the block index times the block's size plus its own
  coordinate. -/

/-- Entry (r, p) of the token block at point t is the token array's entry (r, document of p). -/
theorem tokBlk_apply {F : FTy → Type} [FloatOps F] (m : (ℓ : Loc nD τ sig) → Buf (Elt F) ℓ) (c : Dev nD) (t : Fin cfg0.N)
    (r : Fin 200) (p : Fin 512) :
    tokBlk m c t (ix2 r p) = textArr m c (ix2 r (docOf t p)) := by
  have hi := tokIndex t
  unfold tokBlk iblk
  rw [View.read_apply]
  show V m c main_arg0 _ = _
  rw [V_main_arg0]
  show m (c.tc.loc main_arg0) _ = m (c.tc.loc main_arg0) _
  congr 1
  funext a
  apply Fin.ext
  match a with
  -- rows: 0 · 200 + r
  | ⟨0, _⟩ => show win0_0.index t 0 * 200 + 1 * r.val = r.val; rw [hi.1]; omega
  -- documents: (t / 13) · 512 + p
  | ⟨1, _⟩ => show win0_0.index t 1 * 512 + 1 * p.val = (t.val / 13) * 512 + p.val; rw [hi.2]; omega

/-- Entry k of the weight tile at point t is the weight at its padded-vocabulary position when that is a real
    vocabulary id, and zero in the padding. -/
theorem wBlk_apply (m : (ℓ : Loc nD τ sig) → Buf (Elt Ideal) ℓ) (c : Dev nD) (t : Fin cfg0.N) (k : Fin 4096) :
    wBlk m c t (ix2 (0 : Fin 1) k)
      = if h : (vocOf t k).val < 50000 then wArr m c (ix2 (0 : Fin 1) (⟨(vocOf t k).val, h⟩ : Fin 50000)) else (0 : EReal) := by
  have hi := wIndex t
  unfold wBlk iblk
  rw [View.read_apply]
  show (V m c main_v0 : S1x53248.Idx → EReal) _ = _
  rw [padded_eq]
  -- the entry read is (0, (t % 13) · 4096 + k) of the padded array
  by_cases h : (vocOf t k).val < 50000
  · -- below 50000 the padded array is the weight array there
    rw [dif_pos h]
    refine pad_apply_of_inside _ _ _ _ _ _ _ _ (ix2 (0 : Fin 1) (⟨(vocOf t k).val, h⟩ : Fin 50000)) (fun a => ?_)
    match a with
    | ⟨0, _⟩ => show win0_1.index t 0 * 1 + 1 * (0 : Fin 1).val = 0 + (0 : Fin 1).val * (0 + 1); rw [hi.1]; rfl
    | ⟨1, _⟩ => show win0_1.index t 1 * 4096 + 1 * k.val = 0 + ((t.val % 13) * 4096 + k.val) * (0 + 1); rw [hi.2]; omega
  · -- from 50000 on it is the padding value, the integer zero converted: the float zero
    rw [dif_neg h]
    refine (pad_apply_of_not_inside _ _ _ _ _ _ _ _ (1 : Fin 2) (fun hin => h ?_)).trans ?_
    · have h3 := hin.2.2
      have e : (win0_1.index t 1 * 4096 + 1 * k.val - 0) / (0 + 1) < 50000 := h3
      rw [hi.2] at e
      show (t.val % 13) * 4096 + k.val < 50000
      omega
    · show (Scalar.sitofp .f32 0#32 : Ideal .f32) = 0
      exact sitofp_zero (φ := .f32)

/-- The bias block is the bias array. -/
theorem bBlk_apply {F : FTy → Type} [FloatOps F] (m : (ℓ : Loc nD τ sig) → Buf (Elt F) ℓ) (c : Dev nD) (t : Fin cfg0.N) :
    bBlk m c t (ix1 (0 : Fin 1)) = bArr m c (ix1 (0 : Fin 1)) := by
  have hi := bIndex t
  unfold bBlk iblk
  rw [View.read_apply]
  show V m c main_arg2 _ = _
  rw [V_main_arg2]
  show m (c.tc.loc main_arg2) _ = m (c.tc.loc main_arg2) _
  congr 1
  funext a
  apply Fin.ext
  match a with
  | ⟨0, _⟩ => show win0_2.index t 0 * 1 + 1 * (0 : Fin 1).val = (0 : Fin 1).val; rw [hi]; rfl

end Cert.KernelIdeal.KV

end
-- ==== Proof.Spec.lean ====
/-
  The bag-of-words classifier as one function of its arguments.

  A document is a column of the token array: document `b` holds the tokens `text (t, b)`, `t < 200`.  Token value
  `v` OCCURS in document `b` when some position holds it.  The score of a document is the sum of the weights of the
  vocabulary entries that occur in it — each counted once, however often it occurs — plus the bias.
-/
import Idealize.ShloMosaic.PureOps.Ideal
import Idealize.ShloMosaic.Lib.ValueIdx

noncomputable section

open scoped BigOperators

namespace BagOfWords

open Idealize.ShloMosaic Idealize.ShloMosaic.ValueIdx

/-- Token value `v` occurs in document `b`: some position of column `b` holds the word whose unsigned value is `v`. -/
def Occurs (text : IVec ⟨2, ![200, 4096]⟩ 32) (b : Fin 4096) (v : ℕ) : Prop :=
  ∃ t : Fin 200, (text (ix2 t b)).toNat = v

/-- The indicator of `Occurs` as an extended real: one when the value occurs, zero when it does not. -/
def ind (text : IVec ⟨2, ![200, 4096]⟩ 32) (b : Fin 4096) (v : ℕ) : EReal :=
  open Classical in if Occurs text b v then 1 else 0

/-- The classifier: for document `b` the sum over the vocabulary of indicator times weight, plus the bias. -/
def score (text : IVec ⟨2, ![200, 4096]⟩ 32) (W : FVec Ideal ⟨2, ![1, 50000]⟩ .f32) (bias : FVec Ideal ⟨1, ![1]⟩ .f32) :
    FVec Ideal ⟨2, ![4096, 1]⟩ .f32 :=
  fun j => (∑ v : Fin 50000, ind text (j 0) v.val * W (ix2 0 v)) + bias (ix1 0)

/-! ## Sums over the padded vocabulary, tile by tile -/

section Sums
variable {M : Type} [AddCommMonoid M]

/-- A sum over `a` consecutive tiles of `b` positions each is the sum over all `a * b` positions. -/
theorem sum_tiles (a b : ℕ) (f : ℕ → M) :
    ∑ i ∈ Finset.range a, ∑ k : Fin b, f (i * b + k.val) = ∑ v ∈ Finset.range (a * b), f v := by
  -- induction on the number of tiles: the last tile is the last `b` positions of `range (a * b + b)`
  induction a with
  | zero => simp
  | succ a ih =>
    rw [Finset.sum_range_succ, ih, Nat.add_one_mul, Finset.sum_range_add]
    congr 1
    exact Fin.sum_univ_eq_sum_range (fun k => f (a * b + k)) b

/-- A sum over `n + e` positions of a function that vanishes from `n` on is its sum over the first `n`. -/
theorem sum_pad (n e : ℕ) (f : ℕ → M) (h : ∀ v, n ≤ v → f v = 0) :
    ∑ v ∈ Finset.range (n + e), f v = ∑ v : Fin n, f v.val := by
  -- split the range at `n`; every term of the tail vanishes
  rw [Finset.sum_range_add, Finset.sum_eq_zero (fun x _ => h (n + x) (Nat.le_add_right n x)), add_zero,
    Finset.sum_range]

end Sums

end BagOfWords

end
-- ==== Proof.KValue.lean ====
/-
  The kernel's result array is the classifier's score.

  Point t of the 8 × 13 grid handles document block t / 13 and vocabulary tile t % 13.  The running sum is reset at
  the first tile of a document block and then grows by one tile's contribution per point, so after point t it holds,
  for each document of the block, the sum of the contributions of tiles 0 … t % 13.  A tile's contribution for a
  document is the sum over the tile's 4096 padded-vocabulary positions of (position occurs in the document) times
  (padded weight at the position).  The output block is written back after the last tile: the sum over all 13 tiles
  — that is, over all 53248 padded positions, of which those from 50000 on carry weight zero — plus the bias.
-/
import proofs.«411630_j8151847928093_1_alg».proof.Proof.KPieces
import proofs.«411630_j8151847928093_1_alg».proof.Proof.KIndex
import proofs.«411630_j8151847928093_1_alg».proof.Proof.KMatmul
import proofs.«411630_j8151847928093_1_alg».proof.Proof.KHost
import proofs.«411630_j8151847928093_1_alg».proof.Proof.Spec
import proofs.«411630_j8151847928093_1_alg».proof.Proof.Gen.KernelIdeal.Value
import Idealize.ShloMosaic.Lib.Pipeline.Value

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

/-! ## The running sum, point by point (any float instance) -/

section AnyF
variable {F : FTy → Type} [FloatOps F]
variable (m : (ℓ : Loc nD τ sig) → Buf (Elt F) ℓ)

/-- Point n's update of a running sum. -/
def upd (c : Dev nD) (n : ℕ) (h : n < cfg0.N) (acc : Vec F S512x1 .f32) : Vec F S512x1 .f32 :=
  tileScore (k0_pay2 (grid0.coords ⟨n, h⟩)) (rowAt (ms0_0 ⟨n, h⟩) (hs0_0 ⟨n, h⟩) (tokBlk m c ⟨n, h⟩)) (wBlk m c ⟨n, h⟩) acc

/-- The running sum after point n: reset before the update at the first tile of a document block. -/
def accAfter (c : Dev nD) : (n : ℕ) → n < cfg0.N → Vec F S512x1 .f32
  | 0, h => upd m c 0 h (k0_pay1 (F := F))
  | n + 1, h => if (n + 1) % 13 = 0 then upd m c (n + 1) h (k0_pay1 (F := F))
      else upd m c (n + 1) h (accAfter c n (Nat.lt_of_succ_lt h))

/-- What the frame's run holds after point n: the output block is the running sum plus the bias, the scratch the
    running sum. -/
theorem outsAt_eq (c : Dev nD) : ∀ (n : ℕ) (h : n < cfg0.N),
    outsAt0 m c n h = (k0_pay67 (accAfter m c n h) (bBlk m c ⟨n, h⟩), accAfter m c n h)
  | 0, h => by
    rw [outsAt0_A m c ⟨0, h⟩ (Nat.zero_mod _), out_A, sout_A]
    rfl
  | n + 1, h => by
    by_cases h0 : (n + 1) % 13 = 0
    · rw [outsAt0_A m c ⟨n + 1, h⟩ h0, out_A, sout_A]
      simp only [accAfter, if_pos h0]
      rfl
    · rw [outsAt0_B m c ⟨n + 1, h⟩ h0, out_B, sout_B]
      show (k0_pay67 (tileScore _ _ _ (outsAt0 m c n _).2) _, tileScore _ _ _ (outsAt0 m c n _).2) = _
      rw [outsAt_eq c n (Nat.lt_of_succ_lt h)]
      simp only [accAfter, if_neg h0]
      rfl

end AnyF

/-! ## At the extended reals -/

variable (m : (ℓ : Loc nD τ sig) → Buf (Elt Ideal) ℓ) (ρ : Dev nD → PrngReg)

/-- The padded weight at padded-vocabulary position v. -/
def wPad (c : Dev nD) (v : ℕ) : EReal :=
  if h : v < 50000 then wArr m c (ix2 (0 : Fin 1) (⟨v, h⟩ : Fin 50000)) else 0

/-- Position v's term for document b: the indicator that v occurs in b, times the padded weight. -/
def term (c : Dev nD) (b : Fin 4096) (v : ℕ) : EReal := BagOfWords.ind (textArr m c) b v * wPad m c v

/-- The second grid coordinate of point t is its tile number t % 13 — decided over the grid. -/
theorem coords1 : ∀ t : Fin cfg0.N, ((grid0.coords t) 1).val = t.val % 13 :=
  (by decide +kernel : ∀ t : Fin grid0.N, ((grid0.coords t) 1).val = t.val % 13)

/-- A 32-bit word equals the word of a number below 2^32 exactly when its unsigned value is that number. -/
theorem eq_ofNat_iff (x : BitVec 32) (n : ℕ) (hn : n < 4294967296) : x = BitVec.ofNat 32 n ↔ x.toNat = n := by
  constructor
  · rintro rfl; rw [BitVec.toNat_ofNat]; exact Nat.mod_eq_of_lt hn
  · intro h; apply BitVec.eq_of_toNat_eq; rw [h, BitVec.toNat_ofNat]; exact (Nat.mod_eq_of_lt hn).symm

/-- The presence matrix's entry (p, k) at point t is the indicator that the padded position of k occurs in the
    document of p. -/
theorem pres_eq_ind (c : Dev nD) (t : Fin cfg0.N) (p : Fin 512) (k : Fin 4096) :
    presUpTo (F := Ideal) (k0_pay2 (grid0.coords t)) (rowAt (ms0_0 t) (hs0_0 t) (tokBlk m c t)) 200 (Nat.le_refl _) (ix2 p k)
      = BagOfWords.ind (textArr m c) (docOf t p) (vocOf t k).val := by
  have hv : (vocOf t k).val < 4294967296 := by have := (vocOf t k).isLt; omega
  have hids : k0_pay2 (grid0.coords t) (ix2 (0 : Fin 1) k) = BitVec.ofNat 32 (vocOf t k).val := by
    rw [ids_apply, coords1]; rfl
  have hiff : (∃ r : Fin 200, r.val < 200 ∧ rowAt (ms0_0 t) (hs0_0 t) (tokBlk m c t) r.val r.isLt (ix2 (0 : Fin 1) p)
        = k0_pay2 (grid0.coords t) (ix2 (0 : Fin 1) k))
      ↔ BagOfWords.Occurs (textArr m c) (docOf t p) (vocOf t k).val := by
    constructor
    · rintro ⟨r, -, hr⟩
      refine ⟨r, ?_⟩
      rw [rowAt_apply, tokBlk_apply, hids] at hr
      exact (eq_ofNat_iff _ _ hv).mp hr
    · rintro ⟨r, hr⟩
      refine ⟨r, r.isLt, ?_⟩
      rw [rowAt_apply, tokBlk_apply, hids]
      exact (eq_ofNat_iff _ _ hv).mpr hr
  rw [pres_apply]
  unfold BagOfWords.ind
  by_cases hO : BagOfWords.Occurs (textArr m c) (docOf t p) (vocOf t k).val
  · rw [if_pos hO, if_pos (hiff.mpr hO)]
  · rw [if_neg hO, if_neg (fun h => hO (hiff.mp h))]

/-- Point t's update at document row p adds the tile's terms. -/
theorem upd_apply (c : Dev nD) (n : ℕ) (h : n < cfg0.N) (acc : Vec Ideal S512x1 .f32) (p : Fin 512) :
    upd m c n h acc (ix2 p (0 : Fin 1))
      = acc (ix2 p (0 : Fin 1)) + ∑ k : Fin 4096, term m c (docOf ⟨n, h⟩ p) ((n % 13) * 4096 + k.val) := by
  unfold upd
  rw [tileScore_apply]
  refine congrArg (acc (ix2 p (0 : Fin 1)) + ·) (Finset.sum_congr rfl fun k _ => ?_)
  rw [pres_eq_ind m c ⟨n, h⟩ p k, wBlk_apply]
  rfl

/-- The reset block, a vector of the literal type. -/
abbrev zeroBlk : Vec Ideal S512x1 .f32 := k0_pay1 (F := Ideal)

theorem zeroBlk_apply (j : S512x1.Idx) : zeroBlk j = (0 : EReal) := zero_apply j

/-- The score of document d, written out. -/
theorem score_apply (text : IVec ⟨2, ![200, 4096]⟩ 32) (W : FVec Ideal ⟨2, ![1, 50000]⟩ .f32) (bias : FVec Ideal ⟨1, ![1]⟩ .f32)
    (d : Fin 4096) :
    BagOfWords.score text W bias (ix2 d (0 : Fin 1))
      = (∑ v : Fin 50000, BagOfWords.ind text d v.val * W (ix2 (0 : Fin 1) v)) + bias (ix1 (0 : Fin 1)) := rfl

/-- Consecutive points of one document block see the same documents. -/
theorem docOf_succ (n : ℕ) (h : n + 1 < cfg0.N) (h0 : ¬(n + 1) % 13 = 0) (p : Fin 512) :
    docOf ⟨n + 1, h⟩ p = docOf ⟨n, Nat.lt_of_succ_lt h⟩ p := by
  apply Fin.ext
  show (n + 1) / 13 * 512 + p.val = n / 13 * 512 + p.val
  omega

/-- The running sum after point n, at document row p: the terms of tiles 0 … n % 13. -/
theorem accAfter_apply (c : Dev nD) : ∀ (n : ℕ) (h : n < cfg0.N) (p : Fin 512),
    accAfter m c n h (ix2 p (0 : Fin 1))
      = ∑ j ∈ Finset.range (n % 13 + 1), ∑ k : Fin 4096, term m c (docOf ⟨n, h⟩ p) (j * 4096 + k.val)
  | 0, h, p => by
    show upd m c 0 h zeroBlk (ix2 p (0 : Fin 1)) = _
    rw [upd_apply, zeroBlk_apply, zero_add]
    show _ = ∑ j ∈ Finset.range 1, _
    rw [Finset.sum_range_one]
  | n + 1, h, p => by
    by_cases h0 : (n + 1) % 13 = 0
    · have e : accAfter m c (n + 1) h = upd m c (n + 1) h zeroBlk := by
        simp only [accAfter, if_pos h0]
      rw [e, upd_apply, zeroBlk_apply, zero_add, h0, Finset.sum_range_one]
    · have e : accAfter m c (n + 1) h = upd m c (n + 1) h (accAfter m c n (Nat.lt_of_succ_lt h)) := by
        simp only [accAfter, if_neg h0]
      have hm : (n + 1) % 13 = n % 13 + 1 := by omega
      rw [e, upd_apply, accAfter_apply c n (Nat.lt_of_succ_lt h) p, docOf_succ n h h0 p, hm,
        Finset.sum_range_succ _ (n % 13 + 1)]

/-- A padded position from 50000 on contributes nothing. -/
theorem term_pad (c : Dev nD) (b : Fin 4096) (v : ℕ) (hv : 50000 ≤ v) : term m c b v = 0 := by
  unfold term wPad
  rw [dif_neg (by omega), mul_zero]

/-- What the last tile's point writes back, at document row p: the classifier's score of that document. -/
theorem out_value (c : Dev nD) (t : Fin cfg0.N) (h12 : t.val % 13 = 12) (p : Fin 512) :
    k0_pay67 (F := Ideal) (accAfter m c t.val t.isLt) (bBlk m c t) (ix2 p (0 : Fin 1))
      = BagOfWords.score (textArr m c) (wArr m c) (bArr m c) (ix2 (docOf t p) (0 : Fin 1)) := by
  have hsum : (∑ j ∈ Finset.range (t.val % 13 + 1), ∑ k : Fin 4096, term m c (docOf t p) (j * 4096 + k.val))
      = ∑ v : Fin 50000, BagOfWords.ind (textArr m c) (docOf t p) v.val * wArr m c (ix2 (0 : Fin 1) v) := by
    rw [h12]
    show (∑ j ∈ Finset.range 13, ∑ k : Fin 4096, term m c (docOf t p) (j * 4096 + k.val)) = _
    rw [BagOfWords.sum_tiles 13 4096 (term m c (docOf t p))]
    show (∑ v ∈ Finset.range (50000 + 3248), term m c (docOf t p) v) = _
    rw [BagOfWords.sum_pad 50000 3248 (term m c (docOf t p)) (term_pad m c (docOf t p))]
    refine Finset.sum_congr rfl fun v _ => ?_
    unfold term wPad
    rw [dif_pos v.isLt]
  rw [bias_apply, accAfter_apply m c t.val t.isLt p, bBlk_apply, score_apply]
  exact congrArg (· + bArr m c (ix1 (0 : Fin 1))) hsum

/-- The output window's block index at point t is (t / 13, 0) — decided over the grid. -/
theorem idx_facts3 : ∀ t : Fin cfg0.N, win0_3.index t (0 : Fin 2) = t.val / 13 ∧ win0_3.index t (1 : Fin 2) = 0 :=
  (by decide +kernel : ∀ t : Fin grid0.N, win0_3.index t (0 : Fin 2) = t.val / 13 ∧ win0_3.index t (1 : Fin 2) = 0)

/-- What a writing-back point writes is its block of the score. -/
theorem flushed_eq (c : Dev nD) (t : Fin cfg0.N) (hf : (cfg0.win 3).flush t = true) :
    (dats m 0 c).flushed 3 t
      = ((cfg0.win 3).blk t).view.read (Elt Ideal) (BagOfWords.score (textArr m c) (wArr m c) (bArr m c)) := by
  have h12 : t.val % 13 = 12 := (flush0_3 t).mp hf
  rw [Cert.KernelIdeal.Value.flushed3, outsAt_eq]
  obtain ⟨e0, e1⟩ := idx_facts3 t
  funext j
  have hj0 : (j 0).val < 512 := (j 0).isLt
  have hj1 : (j 1).val < 1 := (j 1).isLt
  have hL : (cfg0.win 3).xinj (grid0.coords t) j = ix2 (⟨(j 0).val, hj0⟩ : Fin 512) (0 : Fin 1) :=
    funext fun a => Fin.ext (by
      match a with
      | ⟨0, _⟩ => rfl
      | ⟨1, _⟩ => show (j 1).val = 0; omega)
  have hR : ((cfg0.win 3).blk t).view.emb j = ix2 (docOf t (⟨(j 0).val, hj0⟩ : Fin 512)) (0 : Fin 1) :=
    funext fun a => Fin.ext (by
      match a with
      | ⟨0, _⟩ => show win0_3.index t (0 : Fin 2) * 512 + 1 * (j 0).val = t.val / 13 * 512 + (j 0).val; rw [e0]; omega
      | ⟨1, _⟩ => show win0_3.index t (1 : Fin 2) * 1 + 1 * (j 1).val = 0; rw [e1]; omega)
  show k0_pay67 (F := Ideal) (accAfter m c t.val t.isLt) (bBlk m c t) ((cfg0.win 3).xinj (grid0.coords t) j)
    = BagOfWords.score (textArr m c) (wArr m c) (bArr m c) (((cfg0.win 3).blk t).view.emb j)
  rw [hL, hR]
  exact out_value m c t h12 _

/-- An index of the result array is in point t's block iff each coordinate is in the block's range. -/
theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v1).slice (win0_3.rect t)).set ↔ _
  rw [View.set_slice_whole, Rect.mem_set_unit]
  exact Iff.rfl

/-- Every document's entry is written back by the last-tile point of its block. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 104 := N_0
  have ht : (i 0).val / 512 * 13 + 12 < cfg0.N := by rw [hN]; omega
  refine ⟨⟨(i 0).val / 512 * 13 + 12, ht⟩, (flush0_3 _).mpr (by show ((i 0).val / 512 * 13 + 12) % 13 = 12; omega), ?_⟩
  rw [mem_blk3]
  obtain ⟨e0, e1⟩ := idx_facts3 ⟨(i 0).val / 512 * 13 + 12, ht⟩
  intro a
  match a with
  | ⟨0, _⟩ =>
    show win0_3.index _ (0 : Fin 2) * 512 ≤ (i 0).val ∧ (i 0).val < win0_3.index _ (0 : Fin 2) * 512 + 512
    rw [e0]; show ((i 0).val / 512 * 13 + 12) / 13 * 512 ≤ (i 0).val ∧ (i 0).val < ((i 0).val / 512 * 13 + 12) / 13 * 512 + 512
    omega
  | ⟨1, _⟩ =>
    show win0_3.index _ (1 : Fin 2) * 1 ≤ (i 1).val ∧ (i 1).val < win0_3.index _ (1 : Fin 2) * 1 + 1
    rw [e1]; omega

/-- The result array after the run is the score. -/
theorem final3 (c : Dev nD) :
    (dats m 0 c).arrAt 3 cfg0.N = BagOfWords.score (textArr m c) (wArr m c) (bArr m c) :=
  (dats m 0 c).arrAt_eq_of_cover 3 (BagOfWords.score (textArr m c) (wArr m c) (bArr m c)) (flushed_eq m c) cover3

/-- The run, read: the result array at the score of the launched arrays, the arguments unchanged. -/
theorem run : θ_run defs (onTc (τ := τ) (main (F := Ideal))) ⟨m, fun _ => 0, ρ⟩ fun r => ∀ c : Dev nD,
      r.2.mem ((c : Thread nD τ).loc main_v1) = BagOfWords.score (textArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩)
    (Cert.KernelIdeal.Value.run_blocks m ρ)

end Cert.KernelIdeal.KV

end
-- ==== Proof.LibScatterConst.lean ====
/-
  A host scatter whose combiner keeps the update and whose updates all carry one value.

  The scatter is a left fold over the update positions in row-major order: each position whose result index lies inside
  the operand replaces the element there by the update's value, and a position whose result index lies outside is
  dropped.  When every update carries the same value `c`, the order of the fold and repeated hits do not matter:
  an element of the result is `c` when SOME update position lands on it, and is the operand's element when none does.
-/
import Idealize.ShloMosaic.PureOps.ShapeOps

namespace ScatterConst

open Idealize.ShloMosaic

variable {α : Type} {s si u : Shape} {w : Nat}

/-- One step of the scatter's fold, for the combiner that keeps the update. -/
def stepFn (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

/-- The scatter is the fold of that step over all update positions. -/
theorem scatter_eq_foldl (d : ScatterDims s si u) (idx : IVec si w) (upd : u.Idx → α) (x : s.Idx → α) :
    Host.scatter d (fun _ b => b) x idx upd = (List.finRange u.numel).foldl (stepFn d idx upd) x := rfl

/-- A step that lands on `i` leaves the update's value there. -/
theorem stepFn_hit (d : ScatterDims s si u) (idx : IVec si w) (upd : u.Idx → α) (r : s.Idx → α) (n : Fin u.numel)
    (i : s.Idx) (h : d.resultIdx? (u.rowMajor.symm n) idx = some i) :
    stepFn d idx upd r n i = upd (u.rowMajor.symm n) := by
  unfold stepFn
  rw [h]
  exact if_pos rfl

/-- A step that does not land on `i` leaves the element there as it was. -/
theorem stepFn_miss (d : ScatterDims s si u) (idx : IVec si w) (upd : u.Idx → α) (r : s.Idx → α) (n : Fin u.numel)
    (i : s.Idx) (h : d.resultIdx? (u.rowMajor.symm n) idx ≠ some i) :
    stepFn d idx upd r n i = r i := by
  unfold stepFn
  cases hr : d.resultIdx? (u.rowMajor.symm n) idx with
  | none => rfl
  | some i0 =>
    have hne : i ≠ i0 := fun e => h (by rw [hr, e])
    exact if_neg hne

/-- The fold over a list of positions: with all updates equal to `c`, an element some listed position lands on ends at
    `c`, and an element none lands on keeps its starting value. -/
theorem foldl_const (d : ScatterDims s si u) (idx : IVec si w) (upd : u.Idx → α) (c : α) (hc : ∀ j, upd j = c)
    (i : s.Idx) : ∀ (L : List (Fin u.numel)) (x : s.Idx → α),
      ((∃ n ∈ L, d.resultIdx? (u.rowMajor.symm n) idx = some i) → L.foldl (stepFn d idx upd) x i = c)
      ∧ ((∀ n ∈ L, d.resultIdx? (u.rowMajor.symm n) idx ≠ some i) → L.foldl (stepFn d idx upd) x i = x i)
  | [], x => ⟨fun ⟨_, hn, _⟩ => absurd hn List.not_mem_nil, fun _ => rfl⟩
  | n :: L, x => by
    have ih := foldl_const d idx upd c hc i L (stepFn d idx upd x n)
    rw [List.foldl_cons]
    by_cases hL : ∃ n' ∈ L, d.resultIdx? (u.rowMajor.symm n') idx = some i
    · refine ⟨fun _ => ih.1 hL, fun hall => ?_⟩
      obtain ⟨n', hn', he⟩ := hL
      exact absurd he (hall n' (List.mem_cons_of_mem _ hn'))
    · have hLall : ∀ n' ∈ L, d.resultIdx? (u.rowMajor.symm n') idx ≠ some i := fun n' hn' he => hL ⟨n', hn', he⟩
      refine ⟨fun ⟨n', hn', he⟩ => ?_, fun hall => ?_⟩
      · rcases List.mem_cons.mp hn' with rfl | hn'
        · rw [ih.2 hLall, stepFn_hit d idx upd x n' i he, hc]
        · exact absurd he (hLall n' hn')
      · rw [ih.2 hLall, stepFn_miss d idx upd x n i (hall n List.mem_cons_self)]

/-- An element of the result that some update position lands on is the common update value. -/
theorem scatter_of_hit (d : ScatterDims s si u) (idx : IVec si w) (upd : u.Idx → α) (c : α) (hc : ∀ j, upd j = c)
    (x : s.Idx → α) (i : s.Idx) (h : ∃ j : u.Idx, d.resultIdx? j idx = some i) :
    Host.scatter d (fun _ b => b) x idx upd i = c := by
  rw [scatter_eq_foldl]
  obtain ⟨j, hj⟩ := h
  exact (foldl_const d idx upd c hc i _ x).1 ⟨u.rowMajor j, List.mem_finRange _, by rw [Equiv.symm_apply_apply]; exact hj⟩

/-- An element of the result that no update position lands on is the operand's. -/
theorem scatter_of_miss (d : ScatterDims s si u) (idx : IVec si w) (upd : u.Idx → α) (c : α) (hc : ∀ j, upd j = c)
    (x : s.Idx → α) (i : s.Idx) (h : ∀ j : u.Idx, d.resultIdx? j idx ≠ some i) :
    Host.scatter d (fun _ b => b) x idx upd i = x i := by
  rw [scatter_eq_foldl]
  exact (foldl_const d idx upd c hc i _ x).2 fun n _ => h _

end ScatterConst
-- ==== Proof.RefScatter.lean ====
/-
  The reference's indicator matrix.

  The reference scatters the value one into a zero matrix of documents by vocabulary at the positions
  (document b, token text (t, b)) for every position t.  A token that is not negative is used as it is (the
  reference's wrap-around of negative indices does nothing to it); a token beyond the vocabulary lands outside the
  matrix and is dropped.  So entry (b, v) of the matrix is one when v occurs in document b and zero otherwise.

  The proof has three parts.  First the scatter's dimension numbers are read at an update position (b', t): there is
  no window, and the start on operand axis a is the index array's word at (b', t, a), read signed; so the position
  lands on entry (b, v) exactly when those two words are b and v.  Then the index array is read at (b', t, 0) and
  (b', t, 1) through the concatenation: the first word is the document number b', the second the token text (t, b'),
  neither changed by the wrap-around of negative values.  Last, all updates carry the value one and the operand is
  zero, so an entry is one when some position lands on it and zero when none does.
-/
import proofs.«411630_j8151847928093_1_alg».proof.Proof.Gen.ReferenceIdeal.Read
import proofs.«411630_j8151847928093_1_alg».proof.Proof.Spec
import proofs.«411630_j8151847928093_1_alg».proof.Proof.LibScatterConst
import Idealize.ShloMosaic.Lib.IdealHost
import Idealize.ShloMosaic.Lib.StableHlo.Predicate

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## The scatter's dimension numbers at an update position -/

/-- The scatter's dimension numbers: no window axes, both operand axes inserted, start component c on operand axis c,
    the index vector along axis 2 of the index array. -/
private abbrev dS : ScatterDims S4096x50000 S4096x200x2 S4096x200 := scatter_S4096x50000_S4096x200x2_S4096x200_n_01_01_2

/-- Both operand axes are inserted, so the window coordinate is zero on each. -/
private theorem window_eq (j : S4096x200.Idx) (a : Fin 2) : dS.window j a = 0 := by
  unfold ScatterDims.window
  exact dif_neg (by revert a; decide)

/-- The start on operand axis 0 at update position (b, t) is the index array's word at (b, t, 0), read signed. -/
private theorem start_zero {w : Nat} (idx : IVec S4096x200x2 w) (b : Fin 4096) (t : Fin 200) :
    dS.start (ix2 b t) idx 0 = (idx (ix3 b t 0)).toInt := by
  unfold ScatterDims.start
  rw [dif_pos (show (0 : Fin 2) ∈ dS.scatterDimsToOperandDims by decide)]
  refine congrArg (fun k => (idx k).toInt) ?_
  funext c; refine Fin.ext ?_
  match c with
  | ⟨0, _⟩ => rfl
  | ⟨1, _⟩ => rfl
  | ⟨2, _⟩ => rfl

/-- The start on operand axis 1 at update position (b, t) is the index array's word at (b, t, 1), read signed. -/
private theorem start_one {w : Nat} (idx : IVec S4096x200x2 w) (b : Fin 4096) (t : Fin 200) :
    dS.start (ix2 b t) idx 1 = (idx (ix3 b t 1)).toInt := by
  unfold ScatterDims.start
  rw [dif_pos (show (1 : Fin 2) ∈ dS.scatterDimsToOperandDims by decide)]
  refine congrArg (fun k => (idx k).toInt) ?_
  funext c; refine Fin.ext ?_
  match c with
  | ⟨0, _⟩ => rfl
  | ⟨1, _⟩ => rfl
  | ⟨2, _⟩ => rfl

/-- Update position (b, t) lands on entry (b', v) exactly when the two words of its index vector, read signed, are
    b' and v: being inside the matrix on both axes is then automatic, and outside it no entry is hit. -/
private theorem resultIdx_iff {w : Nat} (idx : IVec S4096x200x2 w) (b : Fin 4096) (t : Fin 200) (b' : Fin 4096) (v : Fin 50000) :
    dS.resultIdx? (ix2 b t) idx = some (ix2 b' v) ↔
      (idx (ix3 b t 0)).toInt = (b'.val : Int) ∧ (idx (ix3 b t 1)).toInt = (v.val : Int) := by
  have h0 : dS.start (ix2 b t) idx 0 + (dS.window (ix2 b t) 0 : Nat) = (idx (ix3 b t 0)).toInt := by
    rw [start_zero, window_eq]; simp
  have h1 : dS.start (ix2 b t) idx 1 + (dS.window (ix2 b t) 1 : Nat) = (idx (ix3 b t 1)).toInt := by
    rw [start_one, window_eq]; simp
  have hb := b'.isLt
  have hv := v.isLt
  unfold ScatterDims.resultIdx?
  constructor
  · intro h
    split at h
    · rename_i hall
      have e := Option.some.inj h
      have e0 : (dS.start (ix2 b t) idx 0 + (dS.window (ix2 b t) 0 : Nat)).toNat = b'.val := congrArg (fun f => (f 0).val) e
      have e1 : (dS.start (ix2 b t) idx 1 + (dS.window (ix2 b t) 1 : Nat)).toNat = v.val := congrArg (fun f => (f 1).val) e
      have a0 := (hall 0).1
      have a1 := (hall 1).1
      rw [h0] at e0 a0
      rw [h1] at e1 a1
      constructor <;> omega
    · exact absurd h (by simp)
  · rintro ⟨e0, e1⟩
    have hall : ∀ a, 0 ≤ dS.start (ix2 b t) idx a + (dS.window (ix2 b t) a : Nat)
        ∧ dS.start (ix2 b t) idx a + (dS.window (ix2 b t) a : Nat) < S4096x50000.size a := fun a =>
      match a with
      | ⟨0, _⟩ => by
        show 0 ≤ dS.start (ix2 b t) idx 0 + (dS.window (ix2 b t) 0 : Nat) ∧ dS.start (ix2 b t) idx 0 + (dS.window (ix2 b t) 0 : Nat) < (4096 : Nat)
        rw [h0]; omega
      | ⟨1, _⟩ => by
        show 0 ≤ dS.start (ix2 b t) idx 1 + (dS.window (ix2 b t) 1 : Nat) ∧ dS.start (ix2 b t) idx 1 + (dS.window (ix2 b t) 1 : Nat) < (50000 : Nat)
        rw [h1]; omega
    rw [dif_pos hall]
    refine congrArg some (funext fun a => Fin.ext ?_)
    match a with
    | ⟨0, _⟩ =>
      show (dS.start (ix2 b t) idx 0 + (dS.window (ix2 b t) 0 : Nat)).toNat = b'.val
      rw [h0]; omega
    | ⟨1, _⟩ =>
      show (dS.start (ix2 b t) idx 1 + (dS.window (ix2 b t) 1 : Nat)).toNat = v.val
      rw [h1]; omega

/-! ## Words -/

/-- A signed comparison "below zero" of a word that is not negative is the bit zero. -/
private theorem cmpi_slt_zero (x : BitVec 32) (h : 0 ≤ x.toInt) : IntOp.cmpi .slt x 0#32 = 0#1 := by
  have hs : x.slt 0#32 = false := by
    simp only [BitVec.slt, BitVec.toInt_zero, decide_eq_false_iff_not, not_lt]; exact h
  unfold IntOp.cmpi
  show BitVec.ofBool (x.slt 0#32) = 0#1
  rw [hs]; rfl

/-- A word that is not negative as a signed number reads the same signed and unsigned. -/
private theorem toInt_eq_toNat_of_nonneg (x : BitVec 32) (h : 0 ≤ x.toInt) : x.toInt = (x.toNat : Int) := by
  have hlt := x.isLt
  by_cases hc : 2 * x.toNat < 2 ^ 32
  · rw [BitVec.toInt_eq_toNat_cond, if_pos hc]
  · rw [BitVec.toInt_eq_toNat_cond, if_neg hc] at h; omega

/-! ## The index array at an update position -/

/-- Component 0 of the index vector at (b, t) comes from the first piece of the concatenation. -/
private theorem v17_zero (x0 : IVec S200x4096 32) (b : Fin 4096) (t : Fin 200) :
    val_main_v17 (F := Ideal) x0 (ix3 b t (0 : Fin 2)) = val_main_v15 (F := Ideal) (ix3 b t (0 : Fin 1)) := by
  unfold val_main_v17
  exact concatenate_pair_apply_left (t := S4096x200x2) (s₁ := S4096x200x1) (s₂ := S4096x200x1) (2 : Fin 3) _ _
    concatenates_S4096x200x1_S4096x200x1_S4096x200x2_d2 (ix3 b t (0 : Fin 2)) rfl (ix3 b t (0 : Fin 1))
    (fun c => match c with | ⟨0, _⟩ => rfl | ⟨1, _⟩ => rfl | ⟨2, _⟩ => rfl)

/-- Component 1 of the index vector at (b, t) comes from the second piece of the concatenation. -/
private theorem v17_one (x0 : IVec S200x4096 32) (b : Fin 4096) (t : Fin 200) :
    val_main_v17 (F := Ideal) x0 (ix3 b t (1 : Fin 2)) = val_main_v16 (F := Ideal) x0 (ix3 b t (0 : Fin 1)) := by
  unfold val_main_v17
  exact concatenate_pair_apply_right (t := S4096x200x2) (s₁ := S4096x200x1) (s₂ := S4096x200x1) (2 : Fin 3) _ _
    concatenates_S4096x200x1_S4096x200x1_S4096x200x2_d2 (ix3 b t (1 : Fin 2)) rfl rfl (ix3 b t (0 : Fin 1))
    (fun c => match c with | ⟨0, _⟩ => fun _ => rfl | ⟨1, _⟩ => fun _ => rfl | ⟨2, _⟩ => fun h => absurd rfl h) rfl

/-- The document numbers after the wrap-around of negative ones: a number below 4096 is not negative, so it is
    kept. -/
private theorem v8_apply' (i : S4096x1.Idx) : val_main_v8 (F := Ideal) i = BitVec.ofNat 32 (i 0).val := by
  have e1 : val_main_v1 (F := Ideal) i = BitVec.ofNat 32 (i 0).val := by
    rw [val_main_v1_apply, val_main_v0_apply]
  have hlt : (i 0).val < 4096 := (i 0).isLt
  rw [val_main_v8_apply, val_main_v5_apply, val_main_v4_apply, val_main_c_apply, e1,
    cmpi_slt_zero _ (by rw [StableHlo.Predicate.toInt_ofNat_small _ (by omega)]; omega), select_zero]

/-- The tokens after the wrap-around of negative ones, at (b, t): the token text (t, b) itself, as it is not
    negative. -/
private theorem v13_apply' (x0 : IVec S200x4096 32) (hpos : ∀ i, 0 ≤ (x0 i).toInt) (b : Fin 4096) (t : Fin 200) :
    val_main_v13 (F := Ideal) x0 (ix2 b t) = x0 (ix2 t b) := by
  have e3 : val_main_v3 (F := Ideal) x0 (ix2 b t) = x0 (ix2 t b) := by
    rw [val_main_v3_apply]
    refine congrArg x0 (funext fun a => ?_)
    match a with
    | ⟨0, _⟩ => rfl
    | ⟨1, _⟩ => rfl
  rw [val_main_v13_apply, val_main_v10_apply, val_main_v9_apply, val_main_c_1_apply, e3,
    cmpi_slt_zero _ (hpos _), select_zero]

/-- Component 0 of the index vector at (b, t) is the document number b. -/
private theorem v17_zero' (x0 : IVec S200x4096 32) (b : Fin 4096) (t : Fin 200) :
    val_main_v17 (F := Ideal) x0 (ix3 b t (0 : Fin 2)) = BitVec.ofNat 32 b.val := by
  rw [v17_zero, val_main_v15_apply, val_main_v14_apply, v8_apply']

/-- Component 1 of the index vector at (b, t) is the token text (t, b). -/
private theorem v17_one' (x0 : IVec S200x4096 32) (hpos : ∀ i, 0 ≤ (x0 i).toInt) (b : Fin 4096) (t : Fin 200) :
    val_main_v17 (F := Ideal) x0 (ix3 b t (1 : Fin 2)) = x0 (ix2 t b) := by
  have e : idx_main_v16 (ix3 b t (0 : Fin 1)) = ix2 b t :=
    funext fun a => match a with | ⟨0, _⟩ => rfl | ⟨1, _⟩ => rfl
  rw [v17_one, val_main_v16_apply, e]
  exact v13_apply' x0 hpos b t

/-! ## The scattered matrix -/

/-- Entry (b, v) of the scattered matrix is the indicator that v occurs in document b, when no token is negative. -/
theorem scattered_apply (x0 : IVec S200x4096 32) (hpos : ∀ i, 0 ≤ (x0 i).toInt) (b : Fin 4096) (v : Fin 50000) :
    val_main_v19 (F := Ideal) x0 (ix2 b v) = BagOfWords.ind x0 b v.val := by
  -- every update carries the value one
  have hupd : ∀ j, val_main_v18 (F := Ideal) j = 1 := fun j => by
    rw [val_main_v18_apply, val_main_cst_3_apply]; exact Ideal.ofBits_one_f32
  -- update position (b', t) lands on entry (b, v) exactly when b' is b and the token at (t, b') is v
  have hland : ∀ (b' : Fin 4096) (t : Fin 200),
      dS.resultIdx? (ix2 b' t) (val_main_v17 (F := Ideal) x0) = some (ix2 b v)
        ↔ b'.val = b.val ∧ (x0 (ix2 t b')).toNat = v.val := by
    intro b' t
    have hb' := b'.isLt
    rw [resultIdx_iff, v17_zero', v17_one' x0 hpos, StableHlo.Predicate.toInt_ofNat_small _ (by omega),
      toInt_eq_toNat_of_nonneg _ (hpos _)]
    omega
  unfold val_main_v19
  unfold BagOfWords.ind
  by_cases hocc : BagOfWords.Occurs x0 b v.val
  · -- v occurs at position t of document b: update position (b, t) lands on the entry
    rw [if_pos hocc]
    obtain ⟨t, ht⟩ := hocc
    exact ScatterConst.scatter_of_hit dS _ _ 1 hupd _ (ix2 b v) ⟨ix2 b t, (hland b t).2 ⟨rfl, ht⟩⟩
  · -- v does not occur: no update position lands on the entry, which keeps the operand's zero
    rw [if_neg hocc]
    refine (ScatterConst.scatter_of_miss dS _ _ 1 hupd _ (ix2 b v) ?_).trans ?_
    · intro j hj
      obtain ⟨b', t, rfl⟩ : ∃ (b' : Fin 4096) (t : Fin 200), j = ix2 b' t := ⟨j 0, j 1, eq_ix2 j⟩
      have h := (hland b' t).1 hj
      have hbb : b' = b := Fin.ext h.1
      subst hbb
      exact hocc ⟨t, h.2⟩
    · rw [val_main_v2_apply, val_main_cst_apply]; exact Ideal.ofBits_zero_f32

end Cert.ReferenceIdeal.RefValue

end
-- ==== Proof.RefValue.lean ====
/-
  The reference computes the classifier.

  Its result at document b is the matrix product of the indicator matrix's row b with the weight column — the sum over
  the vocabulary of indicator times weight — plus the bias.
-/
import proofs.«411630_j8151847928093_1_alg».proof.Proof.RefScatter

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## The operand indices of the last stages, by coordinates -/

/-- The matrix product reads the indicator matrix's row b at column k. -/
private theorem lidx_eq (b : Fin 4096) (k : Fin 50000) :
    lidx_main_v21 (ix2 b (0 : Fin 1)) k = ix2 b k :=
  funext fun a => Fin.ext (by match a with | ⟨0, _⟩ => rfl | ⟨1, _⟩ => rfl)

/-- The matrix product reads the weight column at row k. -/
private theorem ridx_eq (b : Fin 4096) (k : Fin 50000) :
    ridx_main_v21 (ix2 b (0 : Fin 1)) k = ix2 k (0 : Fin 1) :=
  funext fun a => Fin.ext (by match a with | ⟨0, _⟩ => rfl | ⟨1, _⟩ => rfl)

/-- The weight column is the transposed weight row: its row k is the row's column k. -/
private theorem idx20_eq (k : Fin 50000) :
    idx_main_v20 (ix2 k (0 : Fin 1)) = ix2 (0 : Fin 1) k :=
  funext fun a => Fin.ext (by match a with | ⟨0, _⟩ => rfl | ⟨1, _⟩ => rfl)

/-- The broadcast bias reads the one bias entry, whatever the document. -/
private theorem idx22_eq (b : Fin 4096) :
    idx_main_v22 (idx_main_v23 (ix2 b (0 : Fin 1))) = ix1 (0 : Fin 1) :=
  funext fun a => Fin.ext (by match a with | ⟨0, _⟩ => rfl)

/-- The classifier's score of document b, written out. -/
private theorem score_apply (x0 : IVec S200x4096 32) (x1 : FVec Ideal S1x50000 .f32) (x2 : FVec Ideal S1 .f32)
    (b : Fin 4096) :
    BagOfWords.score x0 x1 x2 (ix2 b (0 : Fin 1))
      = (∑ v : Fin 50000, BagOfWords.ind x0 b v.val * x1 (ix2 (0 : Fin 1) v)) + x2 (ix1 (0 : Fin 1)) := rfl

/-- The reference's last stage is the classifier's score, when no token is negative. -/
theorem ref_eq (x0 : IVec S200x4096 32) (x1 : FVec Ideal S1x50000 .f32) (x2 : FVec Ideal S1 .f32)
    (hpos : ∀ i, 0 ≤ (x0 i).toInt) :
    val_main_v24 (F := Ideal) x0 x1 x2 = BagOfWords.score x0 x1 x2 := by
  funext j
  -- an index of the result is a document number and the one column
  obtain ⟨b, c, rfl⟩ : ∃ (b : Fin 4096) (c : Fin 1), j = ix2 b c := ⟨j 0, j 1, eq_ix2 j⟩
  obtain rfl : c = 0 := Subsingleton.elim _ _
  -- the last stage is the matrix product plus the broadcast bias; on the extended reals the float sum is +
  rw [val_main_v24_apply, val_main_v21_apply, val_main_v23_apply, val_main_v22_apply, Ideal.addf_def]
  rw [score_apply]
  refine congrArg₂ (· + ·) ?_ ?_
  · -- term by term: the indicator matrix's entry is the indicator, the weight column's entry is the weight
    refine Finset.sum_congr rfl fun k _ => ?_
    rw [lidx_eq, ridx_eq, val_main_v20_apply, idx20_eq, scattered_apply x0 hpos b k]
  · rw [idx22_eq]

end Cert.ReferenceIdeal.RefValue

end
-- ==== Proof.PreDecode.lean ====
/-
  The precondition, read.

  Its third conjunct says every token is at least zero as a signed 32-bit number.
-/
import proofs.«411630_j8151847928093_1_alg».proof.Pre_finite_inputs
import proofs.«411630_j8151847928093_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreRead

open Idealize.ShloMosaic Idealize.ShloMosaic.ValueIdx

/-- A signed "at least zero" compare that came out true says the word's signed value is not negative:
    the compare is the boolean of 0 ≤ x read signed, and zero's signed value is 0. -/
private theorem nonneg_of_sge (x : BitVec 32) (h : IntOp.cmpi .sge x 0#32 = 1#1) : 0 ≤ x.toInt := by
  unfold IntOp.cmpi at h
  rw [StableHlo.Predicate.ofBool_eq_one_iff] at h
  simp only [BitVec.sle, decide_eq_true_eq] at h
  have hz : (0#32 : BitVec 32).toInt = 0 := by decide
  rw [hz] at h
  exact h

/-- Under the precondition no token is negative. -/
theorem tokens_nonneg {F : FTy → Type} [FloatOps F] (x0 : IVec Cert.Pre_finite_inputs.S200x4096 32)
    (x1 : FVec F Cert.Pre_finite_inputs.S1x50000 .f32) (x2 : FVec F Cert.Pre_finite_inputs.S1 .f32)
    (h : Cert.Pre_finite_inputs.fn (F := F) x0 x1 x2 = fun _ => 1#1) :
    ∀ i, 0 ≤ (x0 i).toInt := by
  intro i
  -- the scalar result has one index
  haveI : Subsingleton Cert.Pre_finite_inputs.S_.Idx := ⟨fun a b => funext fun d => d.elim0⟩
  -- the result at its one index: the conjunction of the finiteness part and the "all tokens ≥ 0" part
  have h0 := congrFun h ValueIdx.ix0
  dsimp only [Cert.Pre_finite_inputs.fn] at h0
  -- a one-bit "and" that is 1 has both sides 1: keep the second, the reduction by "and" of the compare
  have h1 := (IntOp.andi_eq_one.1 h0).2
  -- a reduction by "and" over all axes that is 1 met a 1 at every index
  have h2 := Host.reduce_andi_all _ _ _ _ _ h1 i
  -- the compare at i is token i against the broadcast zero
  exact nonneg_of_sge (x0 i) h2

end Cert.PreRead

end
-- ==== Proof.lean ====
/-
  The certificate of a bag-of-words linear classifier.

  For every document (a column of 200 tokens) the program marks which of the 50000 vocabulary entries occur in it,
  each at most once however often it is repeated, and returns the sum of the marked entries' weights plus a bias.
  The kernel builds the marks tile by tile — 4096 vocabulary ids at a time, by comparing every token with every id
  of the tile and taking the maximum over the 200 positions —, multiplies each tile of marks with the tile's weights and
  accumulates over the 13 tiles of the zero-padded vocabulary; the reference scatters ones into a zero matrix and
  takes one matrix product.  On the extended reals both are the sum, over the vocabulary entries that occur in the
  document, of the weights, plus the bias: sums of extended reals may be regrouped freely, and the padding contributes
  products with zero.  The tokens must not be negative: the reference reads a negative token as counted from the end
  of the vocabulary, which the kernel's comparison does not.
-/
import proofs.«411630_j8151847928093_1_alg».proof.Defs
import proofs.«411630_j8151847928093_1_alg».proof.Proof.Gen.Kernel
import proofs.«411630_j8151847928093_1_alg».proof.Proof.Gen.Kernel.Frame
import proofs.«411630_j8151847928093_1_alg».proof.Proof.Gen.KernelIdeal
import proofs.«411630_j8151847928093_1_alg».proof.Proof.Gen.KernelIdeal.Frame
import proofs.«411630_j8151847928093_1_alg».proof.Proof.Gen.KernelIdeal.Value
import proofs.«411630_j8151847928093_1_alg».proof.Proof.Gen.ReferenceIdeal
import proofs.«411630_j8151847928093_1_alg».proof.Proof.Gen.ReferenceIdeal.Run
import proofs.«411630_j8151847928093_1_alg».proof.Proof.Gen.ReferenceIdeal.Read
import proofs.«411630_j8151847928093_1_alg».proof.Proof.Gen.Pre_finite_inputs
import proofs.«411630_j8151847928093_1_alg».proof.Proof.KValue
import proofs.«411630_j8151847928093_1_alg».proof.Proof.RefValue
import proofs.«411630_j8151847928093_1_alg».proof.Proof.PreDecode
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the score of the launched arrays: the kernel's result array by the tile-by-tile sum, the
    reference's by its scatter and matrix product, under the precondition's "no token is negative". -/
theorem algebraic : Cert.algebraic_KernelIdeal_ReferenceIdeal := by
  intro m ρ m' ρ' hpre hagree
  refine ⟨fun c => BagOfWords.score (Cert.KernelIdeal.KV.textArr m c) (Cert.KernelIdeal.KV.wArr m c) (Cert.KernelIdeal.KV.bArr m c),
    Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  exact Cert.ReferenceIdeal.RefValue.ref_eq _ _ _ (Cert.PreRead.tokens_nonneg _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
